-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S2x1x2048 : S_.BroadcastsInDim S2x1x2048 (![] : Fin 0 → Fin S2x1x2048.rank)
  reducesTo_S2x1x2048_S_d0_1_2 : S2x1x2048.ReducesTo [0, 1, 2] S_

variable [Facts]

def fn_part3 {F : FTy → Type} [FloatOps F] (main_arg11 : FVec F S2x1x2048 .f32) (main_arg12 : FVec F S2x1x2048 .f32) (main_v48 : IVec S_ 1) (main_v49 : FVec F S2x1x2048 .f32) (main_v50 : FVec F S2x1x2048 .f32) : IVec S_ 1 :=
  let main_v51 : IVec S2x1x2048 1 := cmpf .olt main_v49 main_v50
  let main_c_19 : IVec S_ 1 := constantI S_ 1 1#1
  let main_v52 : IVec S_ 1 := (fun x v => Host.reduce IntOp.andi x v reducesTo_S2x1x2048_S_d0_1_2 h_S_) main_v51 main_c_19
  let main_v53 : IVec S_ 1 := andi main_v48 main_v52
  let main_v54 : FVec F S2x1x2048 .f32 := Host.absf main_arg11
  let main_cst_20 : FVec F S_ .f32 := constant S_ .f32 0x7F800000#32
  let main_v55 : FVec F S2x1x2048 .f32 := broadcastInDim S2x1x2048 ![] bcast_S_S2x1x2048 main_cst_20
  let main_v56 : IVec S2x1x2048 1 := cmpf .olt main_v54 main_v55
  let main_c_21 : IVec S_ 1 := constantI S_ 1 1#1
  let main_v57 : IVec S_ 1 := (fun x v => Host.reduce IntOp.andi x v reducesTo_S2x1x2048_S_d0_1_2 h_S_) main_v56 main_c_21
  let main_v58 : IVec S_ 1 := andi main_v53 main_v57
  let main_v59 : FVec F S2x1x2048 .f32 := Host.absf main_arg12
  let main_cst_22 : FVec F S_ .f32 := constant S_ .f32 0x7F800000#32
  let main_v60 : FVec F S2x1x2048 .f32 := broadcastInDim S2x1x2048 ![] bcast_S_S2x1x2048 main_cst_22
  let main_v61 : IVec S2x1x2048 1 := cmpf .olt main_v59 main_v60
  let main_c_23 : IVec S_ 1 := constantI S_ 1 1#1
  let main_v62 : IVec S_ 1 := (fun x v => Host.reduce IntOp.andi x v reducesTo_S2x1x2048_S_d0_1_2 h_S_) main_v61 main_c_23
  let main_v63 : IVec S_ 1 := andi main_v58 main_v62
  main_v63

def fn_part2 {F : FTy → Type} [FloatOps F] (main_arg7 : FVec F S2048x2048 .f32) (main_arg8 : FVec F S1x2048 .f32) (main_arg9 : FVec F S1x2048 .f32) (main_arg10 : FVec F S2x1x2048 .f32) (main_arg11 : FVec F S2x1x2048 .f32) (main_arg12 : FVec F S2x1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S2x1x2048 .f32 := Host.absf main_arg10
  let main_cst_18 : FVec F S_ .f32 := constant S_ .f32 0x7F800000#32
  let main_v50 : FVec F S2x1x2048 .f32 := broadcastInDim S2x1x2048 ![] bcast_S_S2x1x2048 main_cst_18
  fn_part3 (F := F) main_arg11 main_arg12 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S1x2048 .f32) (main_arg9 : FVec F S1x2048 .f32) (main_arg10 : FVec F S2x1x2048 .f32) (main_arg11 : FVec F S2x1x2048 .f32) (main_arg12 : FVec F S2x1x2048 .f32) (main_v13 : IVec S_ 1) (main_v16 : IVec S2x2048x2048 1) : IVec S_ 1 :=
  let main_c_5 : IVec S_ 1 := constantI S_ 1 1#1
  let main_v17 : IVec S_ 1 := (fun x v => Host.reduce IntOp.andi x v reducesTo_S2x2048x2048_S_d0_1_2 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x2048 .f32) (main_arg1 : FVec F S2048x2048 .f32) (main_arg2 : FVec F S2048x2048 .f32) (main_arg3 : FVec F S2x2048x2048 .f32) (main_arg4 : FVec F S2048x2048 .f32) (main_arg5 : FVec F S2048x2048 .f32) (main_arg6 : FVec F S2048x2048 .f32) (main_arg7 : FVec F S2048x2048 .f32) (main_arg8 : FVec F S1x2048 .f32) (main_arg9 : FVec F S1x2048 .f32) (main_arg10 : FVec F S2x1x2048 .f32) (main_arg11 : FVec F S2x1x2048 .f32) (main_arg12 : FVec F S2x1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2x2048x2048 .f32 := Host.absf main_arg3
  let main_cst_4 : FVec F S_ .f32 := constant S_ .f32 0x7F800000#32
  let main_v15 : FVec F S2x2048x2048 .f32 := broadcastInDim S2x2048x2048 ![] bcast_S_S2x2048x2048 main_cst_4
  let main_v16 : IVec S2x2048x2048 1 := cmpf .olt main_v14 main_v15
  fn_part1 (F := F) main_arg4 main_arg5 main_arg6 main_arg7 main_arg8 main_arg9 main_arg10 main_arg11 main_arg12 main_v13 main_v16
-- ==== Kernel.lean ====
abbrev S2048x2048 : Shape := ⟨2, ![2048, 2048]⟩
abbrev S2x2048x2048 : Shape := ⟨3, ![2, 2048, 2048]⟩
abbrev S1x2048 : Shape := ⟨2, ![1, 2048]⟩
abbrev S2x1x2048 : Shape := ⟨3, ![2, 1, 2048]⟩
abbrev S256x512 : Shape := ⟨2, ![256, 512]⟩
abbrev S512x256 : Shape := ⟨2, ![512, 256]⟩
abbrev S256x256 : Shape := ⟨2, ![256, 256]⟩
abbrev S2x256x256 : Shape := ⟨3, ![2, 256, 256]⟩
abbrev S1x256 : Shape := ⟨2, ![1, 256]⟩
abbrev S2x1x256 : Shape := ⟨3, ![2, 1, 256]⟩
abbrev S1x256x256 : Shape := ⟨3, ![1, 256, 256]⟩

abbrev nBuf : Space → Nat
  | .hbm => 17
  | .vmem => 33
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048x2048, .f32⟩
  | .hbm, ⟨14, _⟩ => ⟨S2048x2048, .f32⟩
  | .hbm, ⟨15, _⟩ => ⟨S2x2048x2048, .f32⟩
  | .hbm, ⟨16, _⟩ => ⟨S2048x2048, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S2x256x256, .f32⟩
  | .local _ .vmem, ⟨13, _⟩ => ⟨S2x256x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2x1x256, .f32⟩
  | .local _ .vmem, ⟨19, _⟩ => ⟨S2x1x256, .f32⟩
  | .local _ .vmem, ⟨20, _⟩ => ⟨S2x1x256, .f32⟩
  | .local _ .vmem, ⟨21, _⟩ => ⟨S2x1x256, .f32⟩
  | .local _ .vmem, ⟨22, _⟩ => ⟨S2x1x256, .f32⟩
  | .local _ .vmem, ⟨23, _⟩ => ⟨S2x1x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S2x256x256, .f32⟩
  | .local _ .vmem, ⟨29, _⟩ => ⟨S2x256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S2x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S2x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S2x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2x256x256_S2x256x256_0_0_0 : ∀ a, (![0, 0, 0] : Fin 3 → Nat) a + S2x256x256.size a ≤ S2x256x256.size a
  h_S2x256x256 : 0 < S2x256x256.numel
  inb_S1x256_S1x256_0_0 : ∀ a, (![0, 0] : Fin 2 → Nat) a + S1x256.size a ≤ S1x256.size a
  h_S1x256 : 0 < S1x256.numel
  inb_S2x1x256_S2x1x256_0_0_0 : ∀ a, (![0, 0, 0] : Fin 3 → Nat) a + S2x1x256.size a ≤ S2x1x256.size a
  h_S2x1x256 : 0 < S2x1x256.numel
  broadcasts_S2x1x256_S2x256x256 : S2x1x256.Broadcasts S2x256x256
  shapeCasts_S256x256_S1x256x256 : S256x256.ShapeCasts S1x256x256
  broadcasts_S1x256x256_S2x256x256 : S1x256x256.Broadcasts S2x256x256
  reduces_S2x256x256_S256x256 : S2x256x256.Reduces [0] S256x256
  broadcasts_S1x256_S256x256 : S1x256.Broadcasts S256x256
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x2048.size a
  hwx0_0 : ∀ i : grid0.Coords, EltTy.bits .f32 = 32 ∨ (Rect.block (s := S2048x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x2048.size a
  hwx0_1 : ∀ i : grid0.Coords, EltTy.bits .f32 = 32 ∨ (Rect.block (s := S2048x2048) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x2048.size a
  hwx0_3 : ∀ i : grid0.Coords, EltTy.bits .f32 = 32 ∨ (Rect.block (s := S2048x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S2048x2048.size a
  hwx0_4 : ∀ i : grid0.Coords, EltTy.bits .f32 = 32 ∨ (Rect.block (s := S2048x2048) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S2048x2048.size a
  hwx0_5 : ∀ i : grid0.Coords, EltTy.bits .f32 = 32 ∨ (Rect.block (s := S2048x2048) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256x256.size a ≤ S2x2048x2048.size a
  hwx0_6 : ∀ i : grid0.Coords, EltTy.bits .f32 = 32 ∨ (Rect.block (s := S2x2048x2048) S2x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x256.size a ≤ S2x1x2048.size a
  hwx0_9 : ∀ i : grid0.Coords, EltTy.bits .f32 = 32 ∨ (Rect.block (s := S2x1x2048) S2x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x1x256.size a ≤ S2x1x2048.size a
  hwx0_10 : ∀ i : grid0.Coords, EltTy.bits .f32 = 32 ∨ (Rect.block (s := S2x1x2048) S2x1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x1x256.size a ≤ S2x1x2048.size a
  hwx0_11 : ∀ i : grid0.Coords, EltTy.bits .f32 = 32 ∨ (Rect.block (s := S2x1x2048) S2x1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S2048x2048.size a
  hwx0_12 : ∀ i : grid0.Coords, EltTy.bits .f32 = 32 ∨ (Rect.block (s := S2048x2048) S256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S2048x2048.size a
  hwx0_13 : ∀ i : grid0.Coords, EltTy.bits .f32 = 32 ∨ (Rect.block (s := S2048x2048) S256x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x256x256.size a ≤ S2x2048x2048.size a
  hwx0_14 : ∀ i : grid0.Coords, EltTy.bits .f32 = 32 ∨ (Rect.block (s := S2x2048x2048) S2x256x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S2048x2048.size a
  hwx0_15 : ∀ i : grid0.Coords, EltTy.bits .f32 = 32 ∨ (Rect.block (s := S2048x2048) S256x256.size (cc0_transform_15 i) (hinb0_15 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S2x256x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S2x1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S2x1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S256x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_2) S2x256x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_3) S256x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | 13 => fun i => !(k0_cond2 i == 1#1) | 14 => fun i => !(k0_cond2 i == 1#1) | 15 => fun i => !(k0_cond2 i == 1#1) | ⟨_ + 16, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩
abbrev S1x2048x2048 : Shape := ⟨3, ![1, 2048, 2048]⟩

abbrev nBuf : Space → Nat
  | .hbm => 115
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2x1x2048, .f32⟩
  | .hbm, ⟨17, _⟩ => ⟨S2x1x2048, .f32⟩
  | .hbm, ⟨18, _⟩ => ⟨S_, .f32⟩
  | .hbm, ⟨19, _⟩ => ⟨S2x1x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x1x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S_, .f32⟩
  | .hbm, ⟨36, _⟩ => ⟨S2x1x2048, .f32⟩
  | .hbm, ⟨37, _⟩ => ⟨S2x1x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x2048x2048, .f32⟩
  | .hbm, ⟨42, _⟩ => ⟨S2x2048x2048, .f32⟩
  | .hbm, ⟨43, _⟩ => ⟨S2x2048x2048, .f32⟩
  | .hbm, ⟨44, _⟩ => ⟨S2x2048x2048, .f32⟩
  | .hbm, ⟨45, _⟩ => ⟨S1x2048x2048, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x2048x2048, .f32⟩
  | .hbm, ⟨50, _⟩ => ⟨S2x2048x2048, .f32⟩
  | .hbm, ⟨51, _⟩ => ⟨S_, .f32⟩
  | .hbm, ⟨52, _⟩ => ⟨S2x1x2048, .f32⟩
  | .hbm, ⟨53, _⟩ => ⟨S2x1x2048, .f32⟩
  | .hbm, ⟨54, _⟩ => ⟨S_, .f32⟩
  | .hbm, ⟨55, _⟩ => ⟨S2x1x2048, .f32⟩
  | .hbm, ⟨56, _⟩ => ⟨S2x1x2048, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S1x2048, .f32⟩
  | .hbm, ⟨61, _⟩ => ⟨S1x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S_, .f32⟩
  | .hbm, ⟨66, _⟩ => ⟨S1x2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | .hbm, ⟨74, _⟩ => ⟨S_, .f32⟩
  | .hbm, ⟨75, _⟩ => ⟨S1x2048, .f32⟩
  | .hbm, ⟨76, _⟩ => ⟨S1x2048, .f32⟩
  | .hbm, ⟨77, _⟩ => ⟨S_, .f32⟩
  | .hbm, ⟨78, _⟩ => ⟨S2048x2048, .f32⟩
  | .hbm, ⟨79, _⟩ => ⟨S_, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S1x2048, .f32⟩
  | .hbm, ⟨87, _⟩ => ⟨S1x2048, .f32⟩
  | .hbm, ⟨88, _⟩ => ⟨S_, .f32⟩
  | .hbm, ⟨89, _⟩ => ⟨S1x2048, .f32⟩
  | .hbm, ⟨90, _⟩ => ⟨S1x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S_, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S2048x2048, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S2048x2048, .f32⟩
  | .hbm, ⟨104, _⟩ => ⟨S_, .f32⟩
  | .hbm, ⟨105, _⟩ => ⟨S2048x2048, .f32⟩
  | .hbm, ⟨106, _⟩ => ⟨S2048x2048, .f32⟩
  | .hbm, ⟨107, _⟩ => ⟨S2048x2048, .f32⟩
  | .hbm, ⟨108, _⟩ => ⟨S2048x2048, .f32⟩
  | .hbm, ⟨109, _⟩ => ⟨S_, .f32⟩
  | .hbm, ⟨110, _⟩ => ⟨S2048x2048, .f32⟩
  | .hbm, ⟨111, _⟩ => ⟨S2048x2048, .f32⟩
  | .hbm, ⟨112, _⟩ => ⟨S_, .f32⟩
  | .hbm, ⟨113, _⟩ => ⟨S2048x2048, .f32⟩
  | .hbm, ⟨114, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_cst_15 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_21 : Ref sig .tc := ⟨.hbm, 109, rfl⟩
abbrev main_v74 : Ref sig .tc := ⟨.hbm, 110, rfl⟩
abbrev main_v75 : Ref sig .tc := ⟨.hbm, 111, rfl⟩
abbrev main_cst_22 : Ref sig .tc := ⟨.hbm, 112, rfl⟩
abbrev main_v76 : Ref sig .tc := ⟨.hbm, 113, rfl⟩
abbrev main_v77 : Ref sig .tc := ⟨.hbm, 114, rfl⟩

abbrev nD : Nat := 1
abbrev τ : Topo := Topo.v7x

variable {F : FTy → Type} [FloatOps F]

class Facts₀ : Prop where
  bcast_S_S2x1x2048 : S_.BroadcastsInDim S2x1x2048 (![] : Fin 0 → Fin S2x1x2048.rank)
  bcast_S2x1x2048_S2x2048x2048_0_1_2 : S2x1x2048.BroadcastsInDim S2x2048x2048 (![0, 1, 2] : Fin 3 → Fin S2x2048x2048.rank)
  bcast_S2048x2048_S1x2048x2048_1_2 : S2048x2048.BroadcastsInDim S1x2048x2048 (![1, 2] : Fin 2 → Fin S1x2048x2048.rank)
  bcast_S1x2048x2048_S2x2048x2048_0_1_2 : S1x2048x2048.BroadcastsInDim S2x2048x2048 (![0, 1, 2] : Fin 3 → Fin S2x2048x2048.rank)
  bcast_S_S2x2048x2048 : S_.BroadcastsInDim S2x2048x2048 (![] : Fin 0 → Fin S2x2048x2048.rank)
  bcast_S_S1x2048 : S_.BroadcastsInDim S1x2048 (![] : Fin 0 → Fin S1x2048.rank)
  reducesTo_S2x2048x2048_S2048x2048_d0 : S2x2048x2048.ReducesTo [0] S2048x2048
  h_S_ : 0 < S_.numel
  bcast_S_S2048x2048 : S_.BroadcastsInDim S2048x2048 (![] : Fin 0 → Fin S2048x2048.rank)
  bcast_S1x2048_S2048x2048_0_1 : S1x2048.BroadcastsInDim S2048x2048 (![0, 1] : Fin 2 → Fin S2048x2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Neuron.lean ====
/-
  The update of a layer of 2048 leaky integrate-and-fire neurons over a batch of 2048 rows, as functions
  of the argument arrays at the exact instance (entries are extended reals, operations exact).

  Synaptic current: row r, neuron c receives  ∑ₖ x(r,k)·W(k,c) + ∑ₖ d(r,k)·L(k,c)  (the input through the
  feed-forward weights plus the delayed firing through the lateral weights).
  After-spike currents, one for each of the two components a:
      asc'(a,r,c) = ((asc(a,r,c)·(1 − 2·σ(ρ(a,c))) + α(a,c))·f(r,c))·1 + (1 − δ·(σ(κ(a,c))/δ))·asc(a,r,c),
  σ the logistic function, δ the time step, f the firing, ρ, κ, α the per-neuron parameters.
  Voltage:  v'(r,c) = syn(r,c) + ((δ·(σ(μ(c))/δ))·R)·(∑ₐ asc'(a,r,c) + I₀) + (1 − δ·(σ(μ(c))/δ))·v(r,c)
                       − (1·f(r,c))·(v(r,c) − 0).
  Firing:   f'(r,c) = σ((v'(r,c) − θ(c))/1).
  The float constants stay the binary words the programs carry (1, 2, δ = f32 0.05, R = f32 0.1,
  I₀ = f32 0.7, 0): both programs carry the same words, so their values are never needed. Products,
  quotients and differences are written exactly as both programs nest them.
-/
import Idealize.ShloMosaic.PureOps.Ideal
import Idealize.ShloMosaic.Lib.ValueIdx

noncomputable section

open scoped BigOperators

namespace Cert.Hand.Neuron

open Idealize.ShloMosaic Idealize.ShloMosaic.ValueIdx

/-- The words of the constants. -/
abbrev one : EReal := Ideal.ofBits .f32 0x3F800000#32
abbrev two : EReal := Ideal.ofBits .f32 0x40000000#32
abbrev dt : EReal := Ideal.ofBits .f32 0x3D4CCCCD#32
abbrev res : EReal := Ideal.ofBits .f32 0x3DCCCCCD#32
abbrev bias : EReal := Ideal.ofBits .f32 0x3F333333#32
abbrev nought : EReal := Ideal.ofBits .f32 0x00000000#32

abbrev Mat := (⟨2, ![2048, 2048]⟩ : Shape).Idx → EReal
abbrev Cube := (⟨3, ![2, 2048, 2048]⟩ : Shape).Idx → EReal
abbrev Par := (⟨2, ![1, 2048]⟩ : Shape).Idx → EReal
abbrev Par2 := (⟨3, ![2, 1, 2048]⟩ : Shape).Idx → EReal

/-! ## One entry, from the entries it depends on -/

/-- A new after-spike current from the old one `a`, the firing `f` and the neuron's parameters. -/
def ascOf (a f rho kappa alpha : EReal) : EReal :=
  ((a * (one - two * Ideal.logistic rho) + alpha) * f) * one + (one - dt * Ideal.div (Ideal.logistic kappa) dt) * a

/-- A new voltage from the synaptic current, the summed new after-spike currents `s`, the firing, the old voltage and
    the neuron's membrane parameter. -/
def voltOf (syn s f v mu : EReal) : EReal :=
  ((syn + ((dt * Ideal.div (Ideal.logistic mu) dt) * res) * (s + bias)) + (one - dt * Ideal.div (Ideal.logistic mu) dt) * v)
    - (one * f) * (v - nought)

/-- A new firing from the new voltage and the neuron's threshold. -/
def fireOf (v' theta : EReal) : EReal := Ideal.logistic (Ideal.div (v' - theta) one)

/-- The logistic function spelt with a negation, an exponential, a sum and a quotient over the word of 1 is the
    logistic function: the word denotes 1, and the rest is its definition. -/
theorem logistic_spelt (x : EReal) : Ideal.div one (one + Ideal.exp (-x)) = Ideal.logistic x := by
  have h1 : one = 1 := by simp [one, Ideal.ofBits, Ideal.ieee, -EReal.coe_mul]; norm_num
  rw [h1]; rfl

/-! ## The four results, entry by entry -/

variable (x W d L : Mat) (f v : Mat) (A : Cube) (theta mu : Par) (kappa rho alpha : Par2)

/-- Synaptic current at row r, neuron c. -/
def syn (r c : Fin 2048) : EReal :=
  ∑ k : Fin 2048, x (ix2 r k) * W (ix2 k c) + ∑ k : Fin 2048, d (ix2 r k) * L (ix2 k c)

/-- New after-spike current, component a, row r, neuron c. -/
def asc (a : Fin 2) (r c : Fin 2048) : EReal :=
  ascOf (A (ix3 a r c)) (f (ix2 r c)) (rho (ix3 a 0 c)) (kappa (ix3 a 0 c)) (alpha (ix3 a 0 c))

/-- New voltage at row r, neuron c. -/
def volt (r c : Fin 2048) : EReal :=
  voltOf (syn x W d L r c) (∑ a : Fin 2, asc f A kappa rho alpha a r c) (f (ix2 r c)) (v (ix2 r c)) (mu (ix2 0 c))

/-- New firing at row r, neuron c. -/
def fire (r c : Fin 2048) : EReal :=
  fireOf (volt x W d L f v A mu kappa rho alpha r c) (theta (ix2 0 c))

/-! ## The four result arrays -/

def synArr : Mat := fun i => syn x W d L (i 0) (i 1)
def ascArr : Cube := fun i => asc f A kappa rho alpha (i 0) (i 1) (i 2)
def voltArr : Mat := fun i => volt x W d L f v A mu kappa rho alpha (i 0) (i 1)
def fireArr : Mat := fun i => fire x W d L f v A theta mu kappa rho alpha (i 0) (i 1)

end Cert.Hand.Neuron

end
-- ==== Proof.RefIsNeuron.lean ====
/-
  The reference program computes the specification. Its four result stages, the synaptic current, the new
  after-spike currents, the new voltage and the new firing, are the four arrays of the specification, entry by
  entry, at the exact instance.

  Each stage is read at an index from its operands at an index, one step for each operation of the program. A
  broadcast of a per-neuron parameter reads it at (a, 0, c) or (0, c); the broadcast of the firing over the two
  components reads it at (r, c); a contraction reads row r of its left operand and column c of its right one; the
  sum over the two components reads the component k at (k, r, c). The program spells the logistic function as
  1/(1 + exp(−x)) over the word of 1, which is the logistic function; the sum over the components starts from the
  zero word, which denotes 0. After that the two sides are the same expression.
-/
import proofs.«141455_j36764920053992_1_alg».proof.Proof.Gen.ReferenceIdeal.Read
import proofs.«141455_j36764920053992_1_alg».proof.Proof.Neuron

noncomputable section

open scoped BigOperators

namespace Cert.Hand.RefIs

open Idealize.ShloMosaic Idealize.ShloMosaic.ValueIdx
open Cert.ReferenceIdeal Cert.ReferenceIdeal.Read

/-! ## The index maps of the layout operations, in coordinates -/

/-- A parameter of shape [2,1,2048] broadcast over the rows is read at (a, 0, c). -/
theorem idx21 (a : Fin 2) (r c : Fin 2048) : idx_main_v21 (ix3 a r c) = ix3 a (0 : Fin 1) c :=
  funext fun d => Fin.ext (by match d with | ⟨0, _⟩ => rfl | ⟨1, _⟩ => rfl | ⟨2, _⟩ => rfl)
theorem idx23 (a : Fin 2) (r c : Fin 2048) : idx_main_v23 (ix3 a r c) = ix3 a (0 : Fin 1) c :=
  funext fun d => Fin.ext (by match d with | ⟨0, _⟩ => rfl | ⟨1, _⟩ => rfl | ⟨2, _⟩ => rfl)
theorem idx34 (a : Fin 2) (r c : Fin 2048) : idx_main_v34 (ix3 a r c) = ix3 a (0 : Fin 1) c :=
  funext fun d => Fin.ext (by match d with | ⟨0, _⟩ => rfl | ⟨1, _⟩ => rfl | ⟨2, _⟩ => rfl)
/-- The firing broadcast over the two components is read at (r, c). -/
theorem idx25_26 (a : Fin 2) (r c : Fin 2048) : idx_main_v25 (idx_main_v26 (ix3 a r c)) = ix2 r c :=
  funext fun d => Fin.ext (by match d with | ⟨0, _⟩ => rfl | ⟨1, _⟩ => rfl)
/-- A parameter of shape [1,2048] broadcast over the rows is read at (0, c). -/
theorem idx52 (r c : Fin 2048) : idx_main_v52 (ix2 r c) = ix2 (0 : Fin 1) c :=
  funext fun d => Fin.ext (by match d with | ⟨0, _⟩ => rfl | ⟨1, _⟩ => rfl)
theorem idx59 (r c : Fin 2048) : idx_main_v59 (ix2 r c) = ix2 (0 : Fin 1) c :=
  funext fun d => Fin.ext (by match d with | ⟨0, _⟩ => rfl | ⟨1, _⟩ => rfl)
theorem idx68 (r c : Fin 2048) : idx_main_v68 (ix2 r c) = ix2 (0 : Fin 1) c :=
  funext fun d => Fin.ext (by match d with | ⟨0, _⟩ => rfl | ⟨1, _⟩ => rfl)
/-- The sum over the components reads component k at (k, r, c). -/
theorem idx49 (r c : Fin 2048) (k : Fin 2) : idx_main_v49 (ix2 r c) k = ix3 k r c :=
  funext fun d => Fin.ext (by match d with | ⟨0, _⟩ => rfl | ⟨1, _⟩ => rfl | ⟨2, _⟩ => rfl)
/-- The contractions read row r of the left operand and column c of the right one. -/
theorem lidx0 (r c k : Fin 2048) : lidx_main_v0 (ix2 r c) k = ix2 r k :=
  funext fun d => Fin.ext (by match d with | ⟨0, _⟩ => rfl | ⟨1, _⟩ => rfl)
theorem ridx0 (r c k : Fin 2048) : ridx_main_v0 (ix2 r c) k = ix2 k c :=
  funext fun d => Fin.ext (by match d with | ⟨0, _⟩ => rfl | ⟨1, _⟩ => rfl)
theorem lidx1 (r c k : Fin 2048) : lidx_main_v1 (ix2 r c) k = ix2 r k :=
  funext fun d => Fin.ext (by match d with | ⟨0, _⟩ => rfl | ⟨1, _⟩ => rfl)
theorem ridx1 (r c k : Fin 2048) : ridx_main_v1 (ix2 r c) k = ix2 k c :=
  funext fun d => Fin.ext (by match d with | ⟨0, _⟩ => rfl | ⟨1, _⟩ => rfl)

/-! ## The per-neuron factors -/

/-- The factor 1 − 2·σ(ρ) of the after-spike currents. -/
theorem rho_factor (x11 : FVec Ideal S2x1x2048 .f32) (j : S2x1x2048.Idx) :
    val_main_v12 (F := Ideal) x11 j = Neuron.one - Neuron.two * Ideal.logistic (x11 j) := by
  simp only [val_main_v12_apply, val_main_v11_apply, val_main_cst_2_apply, val_main_v10_apply, val_main_v9_apply,
    val_main_cst_1_apply, val_main_v8_apply, val_main_v7_apply, val_main_cst_0_apply, val_main_v6_apply,
    val_main_v5_apply, val_main_cst_apply, val_main_v4_apply, val_main_v3_apply,
    Ideal.ofBits_def, Ideal.subf_def, Ideal.mulf_def, Ideal.addf_def, Ideal.hostDivf_def, Ideal.hostUnary_exp_def,
    Ideal.hostNegf_def, Ideal.negf_def, Neuron.logistic_spelt]

/-- The decay factor 1 − δ·(σ(κ)/δ) of the after-spike currents. -/
theorem kappa_factor (x10 : FVec Ideal S2x1x2048 .f32) (j : S2x1x2048.Idx) :
    val_main_v33 (F := Ideal) x10 j
      = Neuron.one - Neuron.dt * Ideal.div (Ideal.logistic (x10 j)) Neuron.dt := by
  simp only [val_main_v33_apply, val_main_v32_apply, val_main_cst_8_apply, val_main_v31_apply, val_main_v30_apply,
    val_main_cst_7_apply, val_main_v20_apply, val_main_v19_apply, val_main_cst_5_apply, val_main_v18_apply,
    val_main_v17_apply, val_main_cst_4_apply, val_main_v16_apply, val_main_v15_apply, val_main_cst_3_apply,
    val_main_v14_apply, val_main_v13_apply,
    Ideal.ofBits_def, Ideal.subf_def, Ideal.mulf_def, Ideal.addf_def, Ideal.hostDivf_def, Ideal.hostUnary_exp_def,
    Ideal.hostNegf_def, Ideal.negf_def, Neuron.logistic_spelt]

/-- The membrane's rate σ(μ)/δ. -/
theorem mu_rate (x9 : FVec Ideal S1x2048 .f32) (j : S1x2048.Idx) :
    val_main_v44 (F := Ideal) x9 j = Ideal.div (Ideal.logistic (x9 j)) Neuron.dt := by
  simp only [val_main_v44_apply, val_main_v43_apply, val_main_cst_11_apply, val_main_v42_apply, val_main_v41_apply,
    val_main_cst_10_apply, val_main_v40_apply, val_main_v39_apply, val_main_cst_9_apply, val_main_v38_apply,
    val_main_v37_apply,
    Ideal.ofBits_def, Ideal.addf_def, Ideal.hostDivf_def, Ideal.hostUnary_exp_def,
    Ideal.hostNegf_def, Ideal.negf_def, Neuron.logistic_spelt]

/-! ## The four stages at an entry -/

/-- The new after-spike current, component a, row r, neuron c. -/
theorem asc_at (x1 : FVec Ideal S2048x2048 .f32) (x3 : FVec Ideal S2x2048x2048 .f32)
    (x10 x11 x12 : FVec Ideal S2x1x2048 .f32) (a : Fin 2) (r c : Fin 2048) :
    val_main_v36 (F := Ideal) x1 x3 x10 x11 x12 (ix3 a r c) = Neuron.asc x1 x3 x10 x11 x12 a r c := by
  simp only [val_main_v36_apply, val_main_v29_apply, val_main_v28_apply, val_main_cst_6_apply, val_main_v27_apply,
    val_main_v26_apply, val_main_v25_apply, val_main_v24_apply, val_main_v23_apply, val_main_v22_apply,
    val_main_v21_apply, val_main_v35_apply, val_main_v34_apply, rho_factor, kappa_factor,
    idx21, idx23, idx34, idx25_26,
    Ideal.ofBits_def, Ideal.mulf_def, Ideal.addf_def, Neuron.asc, Neuron.ascOf]

/-- The synaptic current at row r, neuron c. -/
theorem syn_at (x0 x5 x6 x7 : FVec Ideal S2048x2048 .f32) (r c : Fin 2048) :
    val_main_v2 (F := Ideal) x0 x5 x6 x7 (ix2 r c) = Neuron.syn x0 x6 x5 x7 r c := by
  simp only [val_main_v2_apply, val_main_v0_apply, val_main_v1_apply, lidx0, ridx0, lidx1, ridx1,
    Ideal.addf_def, Neuron.syn]

/-- The sum of the new after-spike currents over the two components: it starts from the zero word, which denotes 0. -/
theorem sum_at (x1 : FVec Ideal S2048x2048 .f32) (x3 : FVec Ideal S2x2048x2048 .f32)
    (x10 x11 x12 : FVec Ideal S2x1x2048 .f32) (r c : Fin 2048) :
    val_main_v49 (F := Ideal) x1 x3 x10 x11 x12 (ix2 r c) = ∑ a : Fin 2, Neuron.asc x1 x3 x10 x11 x12 a r c := by
  rw [val_main_v49_apply, val_main_cst_14_apply, Ideal.ofBits_def, Ideal.ofBits_zero_f32, zero_add]
  simp only [idx49, asc_at]

/-- The new voltage at row r, neuron c. -/
theorem volt_at (x0 x1 x2 : FVec Ideal S2048x2048 .f32) (x3 : FVec Ideal S2x2048x2048 .f32)
    (x5 x6 x7 : FVec Ideal S2048x2048 .f32) (x9 : FVec Ideal S1x2048 .f32)
    (x10 x11 x12 : FVec Ideal S2x1x2048 .f32) (r c : Fin 2048) :
    val_main_v67 (F := Ideal) x0 x1 x2 x3 x5 x6 x7 x9 x10 x11 x12 (ix2 r c)
      = Neuron.volt x0 x6 x5 x7 x1 x2 x3 x9 x10 x11 x12 r c := by
  simp only [val_main_v67_apply, val_main_v66_apply, val_main_v65_apply, val_main_v64_apply, val_main_cst_19_apply,
    val_main_v63_apply, val_main_v62_apply, val_main_cst_18_apply, val_main_v61_apply, val_main_v60_apply,
    val_main_v59_apply, val_main_v58_apply, val_main_v57_apply, val_main_cst_17_apply, val_main_v56_apply,
    val_main_v55_apply, val_main_cst_16_apply, val_main_v54_apply, val_main_v53_apply, val_main_v52_apply,
    val_main_v51_apply, val_main_v50_apply, val_main_cst_15_apply, sum_at,
    val_main_v48_apply, val_main_v47_apply, val_main_cst_13_apply, val_main_v46_apply, val_main_v45_apply,
    val_main_cst_12_apply, mu_rate, syn_at, idx52, idx59,
    Ideal.ofBits_def, Ideal.subf_def, Ideal.mulf_def, Ideal.addf_def, Neuron.volt, Neuron.voltOf]

/-- The new firing at row r, neuron c. -/
theorem fire_at (x0 x1 x2 : FVec Ideal S2048x2048 .f32) (x3 : FVec Ideal S2x2048x2048 .f32)
    (x5 x6 x7 : FVec Ideal S2048x2048 .f32) (x8 x9 : FVec Ideal S1x2048 .f32)
    (x10 x11 x12 : FVec Ideal S2x1x2048 .f32) (r c : Fin 2048) :
    val_main_v77 (F := Ideal) x0 x1 x2 x3 x5 x6 x7 x8 x9 x10 x11 x12 (ix2 r c)
      = Neuron.fire x0 x6 x5 x7 x1 x2 x3 x8 x9 x10 x11 x12 r c := by
  simp only [val_main_v77_apply, val_main_v76_apply, val_main_cst_22_apply, val_main_v75_apply, val_main_v74_apply,
    val_main_cst_21_apply, val_main_v73_apply, val_main_v72_apply, val_main_v71_apply, val_main_v70_apply,
    val_main_cst_20_apply, val_main_v69_apply, val_main_v68_apply, volt_at, idx68,
    Ideal.ofBits_def, Ideal.subf_def, Ideal.addf_def, Ideal.hostDivf_def, Ideal.hostUnary_exp_def,
    Ideal.hostNegf_def, Ideal.negf_def, Neuron.logistic_spelt, Neuron.fire, Neuron.fireOf]

/-! ## The four stages as arrays -/

theorem ref_syn (x0 x5 x6 x7 : FVec Ideal S2048x2048 .f32) :
    val_main_v2 (F := Ideal) x0 x5 x6 x7 = Neuron.synArr x0 x6 x5 x7 := by
  funext i
  obtain ⟨r, c, rfl⟩ : ∃ (r c : Fin 2048), i = ix2 r c := ⟨i 0, i 1, eq_ix2 i⟩
  exact syn_at x0 x5 x6 x7 r c

theorem ref_asc (x1 : FVec Ideal S2048x2048 .f32) (x3 : FVec Ideal S2x2048x2048 .f32)
    (x10 x11 x12 : FVec Ideal S2x1x2048 .f32) :
    val_main_v36 (F := Ideal) x1 x3 x10 x11 x12 = Neuron.ascArr x1 x3 x10 x11 x12 := by
  funext i
  obtain ⟨a, r, c, rfl⟩ : ∃ (a : Fin 2) (r c : Fin 2048), i = ix3 a r c := ⟨i 0, i 1, i 2, eq_ix3 i⟩
  exact asc_at x1 x3 x10 x11 x12 a r c

theorem ref_volt (x0 x1 x2 : FVec Ideal S2048x2048 .f32) (x3 : FVec Ideal S2x2048x2048 .f32)
    (x5 x6 x7 : FVec Ideal S2048x2048 .f32) (x9 : FVec Ideal S1x2048 .f32)
    (x10 x11 x12 : FVec Ideal S2x1x2048 .f32) :
    val_main_v67 (F := Ideal) x0 x1 x2 x3 x5 x6 x7 x9 x10 x11 x12
      = Neuron.voltArr x0 x6 x5 x7 x1 x2 x3 x9 x10 x11 x12 := by
  funext i
  obtain ⟨r, c, rfl⟩ : ∃ (r c : Fin 2048), i = ix2 r c := ⟨i 0, i 1, eq_ix2 i⟩
  exact volt_at x0 x1 x2 x3 x5 x6 x7 x9 x10 x11 x12 r c

theorem ref_fire (x0 x1 x2 : FVec Ideal S2048x2048 .f32) (x3 : FVec Ideal S2x2048x2048 .f32)
    (x5 x6 x7 : FVec Ideal S2048x2048 .f32) (x8 x9 : FVec Ideal S1x2048 .f32)
    (x10 x11 x12 : FVec Ideal S2x1x2048 .f32) :
    val_main_v77 (F := Ideal) x0 x1 x2 x3 x5 x6 x7 x8 x9 x10 x11 x12
      = Neuron.fireArr x0 x6 x5 x7 x1 x2 x3 x8 x9 x10 x11 x12 := by
  funext i
  obtain ⟨r, c, rfl⟩ : ∃ (r c : Fin 2048), i = ix2 r c := ⟨i 0, i 1, eq_ix2 i⟩
  exact fire_at x0 x1 x2 x3 x5 x6 x7 x8 x9 x10 x11 x12 r c

end Cert.Hand.RefIs

end
-- ==== Proof.BlockSum.lean ====
/-
  An accumulator over four steps, and a sum over 2048 positions cut into four runs of 512.

  The accumulator is cleared at step 0; every step adds a first contribution and then a second one to
  what it finds. After step k it holds the first contributions of steps 0..k plus the second
  contributions of steps 0..k, whatever the order in which they were added: addition is commutative
  and associative, nothing else is used, so this holds in any commutative monoid, the extended reals
  with their infinities included. When step s contributes the sum over positions 512 s .. 512 s + 511
  of a sequence of 2048 terms, the accumulator after step 3 holds the sum of all 2048 terms of the
  first sequence plus the sum of all 2048 terms of the second.
-/
import Mathlib.Algebra.BigOperators.Fin
import Mathlib.Logic.Equiv.Fin.Basic

open scoped BigOperators

namespace Cert.Hand.BlockSum

variable {M : Type*} [AddCommMonoid M]

/-- The accumulator after step k: step 0 starts from zero, each step adds `a` and then `b`. -/
def acc (a b : ℕ → M) : ℕ → M
  | 0 => (0 + a 0) + b 0
  | k + 1 => (acc a b k + a (k + 1)) + b (k + 1)

theorem acc_zero (a b : ℕ → M) : acc a b 0 = (0 + a 0) + b 0 := rfl
theorem acc_succ (a b : ℕ → M) (k : ℕ) : acc a b (k + 1) = (acc a b k + a (k + 1)) + b (k + 1) := rfl

/-- After step k: the first contributions of steps 0..k plus the second contributions of steps 0..k. -/
theorem acc_eq_sums (a b : ℕ → M) (k : ℕ) :
    acc a b k = ∑ s ∈ Finset.range (k + 1), a s + ∑ s ∈ Finset.range (k + 1), b s := by
  induction k with
  | zero => rw [acc_zero, zero_add, Finset.sum_range_one, Finset.sum_range_one]
  | succ k ih =>
    rw [acc_succ, ih, Finset.sum_range_succ a (k + 1), Finset.sum_range_succ b (k + 1)]
    rw [add_assoc, add_add_add_comm]

/-- Position j of run s. -/
abbrev pos (s : Fin 4) (j : Fin 512) : Fin 2048 :=
  ⟨512 * s.val + j.val, by have := s.isLt; have := j.isLt; omega⟩

/-- (run, position in the run) ↦ position, a bijection. -/
def runsEquiv : Fin 4 × Fin 512 ≃ Fin 2048 :=
  finProdFinEquiv.trans (finCongr (show 4 * 512 = 2048 from rfl))

theorem runsEquiv_apply (s : Fin 4) (j : Fin 512) : runsEquiv (s, j) = pos s j :=
  Fin.ext (show j.val + 512 * s.val = 512 * s.val + j.val from Nat.add_comm _ _)

/-- A sum over the 2048 positions is the sum over the four runs of the sums over each run. -/
theorem sum_runs (x : Fin 2048 → M) : ∑ n : Fin 2048, x n = ∑ s : Fin 4, ∑ j : Fin 512, x (pos s j) := by
  rw [← Equiv.sum_comp runsEquiv x, Fintype.sum_prod_type]
  exact Finset.sum_congr rfl fun s _ => Finset.sum_congr rfl fun j _ => congrArg x (runsEquiv_apply s j)

/-- If step s contributes run s of `x` and run s of `y`, the accumulator after step 3 is the whole sum of
    `x` plus the whole sum of `y`. -/
theorem acc_three (a b : ℕ → M) (x y : Fin 2048 → M)
    (ha : ∀ s : Fin 4, a s.val = ∑ j : Fin 512, x (pos s j))
    (hb : ∀ s : Fin 4, b s.val = ∑ j : Fin 512, y (pos s j)) :
    acc a b 3 = ∑ n : Fin 2048, x n + ∑ n : Fin 2048, y n := by
  rw [acc_eq_sums, Finset.sum_range, Finset.sum_range, sum_runs x, sum_runs y]
  exact congrArg₂ (· + ·) (Finset.sum_congr rfl fun s _ => ha s) (Finset.sum_congr rfl fun s _ => hb s)

end Cert.Hand.BlockSum
-- ==== Proof.Pieces.lean ====
import proofs.«141455_j36764920053992_1_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What the body leaves in the accumulator and in the four output blocks, as the body's own arithmetic of the
    blocks it loaded. The accumulator is stored whole three times at a point that clears it (the zero block, then
    the two products added) and twice elsewhere; the last store is what it holds, and each load of it reads what
    the store before left. At the last step of a run of four the four output blocks are each stored once, whole. -/

namespace Cert.Hand.Pieces

open Cert.KernelIdeal Cert.KernelIdeal.Gen

variable {F : FTy → Type} [FloatOps F]

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- At a point that clears the accumulator it ends at the zero block plus the first product plus the second. -/
theorem acc_first (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : cond0_0 i) (hc1 : ¬cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 = k0_pay3 x2 x3 (k0_pay2 x0 x1 k0_pay1) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  rw [View.canon_cons_unit_zero (S := S256x256) hz2]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

/-- At a middle point the accumulator ends at what it held plus the first product plus the second. -/
theorem acc_middle (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : ¬cond0_0 i) (hc1 : ¬cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) (xs0 : Vec F S256x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 = k0_pay3 x2 x3 (k0_pay2 x0 x1 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0)]
  unfold kernelRun0_B
  dsimp only
  sl_unfold_words
  rw [View.canon_cons_unit_zero (S := S256x256) hz2]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

/-- At the last point of a run the accumulator ends the same way. -/
theorem acc_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : ¬cond0_0 i) (hc1 : cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) (xs0 : Vec F S256x256 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 = k0_pay3 x2 x3 (k0_pay2 x0 x1 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0)]
  unfold kernelRun0_C
  dsimp only
  sl_unfold_words
  rw [View.canon_cons_unit_zero (S := S256x256) hz2]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

/-- The synaptic-current block stored at the last point is the accumulator read back. -/
theorem syn_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : ¬cond0_0 i) (hc1 : cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) (xs0 : Vec F S256x256 .f32) :
    out0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 = k0_pay3 x2 x3 (k0_pay2 x0 x1 xs0) := by
  unfold out0_C_15
  rw [View.read_writes_eq_canon _ _ _ (cover0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0)]
  unfold kernelRun0_C
  dsimp only
  sl_unfold_words
  rw [View.canon_unit_zero (S := S256x256) hz2]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

/-- The after-spike block stored at the last point: the two summands added. -/
theorem asc_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : ¬cond0_0 i) (hc1 : cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) (xs0 : Vec F S256x256 .f32) :
    out0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 = k0_pay6 (k0_pay4 x4 x6 x10 x11) (k0_pay5 x6 x9) := by
  unfold out0_C_14
  rw [View.read_writes_eq_canon _ _ _ (cover0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0)]
  unfold kernelRun0_C
  dsimp only
  sl_unfold_words
  rw [View.canon_unit_zero (S := S2x256x256) hz3]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

/-- The voltage block stored at the last point, over the accumulator read back. -/
theorem volt_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : ¬cond0_0 i) (hc1 : cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) (xs0 : Vec F S256x256 .f32) :
    out0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 = k0_pay7 (k0_pay3 x2 x3 (k0_pay2 x0 x1 xs0)) x4 x5 x8 (k0_pay4 x4 x6 x10 x11) (k0_pay5 x6 x9) := by
  unfold out0_C_13
  rw [View.read_writes_eq_canon _ _ _ (cover0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0)]
  unfold kernelRun0_C
  dsimp only
  sl_unfold_words
  rw [View.canon_unit_zero (S := S256x256) hz2]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

/-- The firing block stored at the last point, over the accumulator read back. -/
theorem fire_last (c : Dev nD) (i : grid0.Coords) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S2x256x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2x1x256 .f32) (harg12 : arg12.IsWhole) (arg13 : Memref sig .tc .vmem S2x1x256 .f32) (harg13 : arg13.IsWhole) (arg14 : Memref sig .tc .vmem S2x1x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S2x256x256 .f32) (harg17 : arg17.IsWhole) (arg18 : Memref sig .tc .vmem S256x256 .f32) (harg18 : arg18.IsWhole) (arg19 : Memref sig .tc .vmem S256x256 .f32) (harg19 : arg19.IsWhole) (hc0 : ¬cond0_0 i) (hc1 : cond0_1 i)
    (x0 : Vec F S256x512 .f32) (x1 : Vec F S512x256 .f32) (x2 : Vec F S256x512 .f32) (x3 : Vec F S512x256 .f32) (x4 : Vec F S256x256 .f32) (x5 : Vec F S256x256 .f32) (x6 : Vec F S2x256x256 .f32) (x7 : Vec F S1x256 .f32) (x8 : Vec F S1x256 .f32) (x9 : Vec F S2x1x256 .f32) (x10 : Vec F S2x1x256 .f32) (x11 : Vec F S2x1x256 .f32) (xs0 : Vec F S256x256 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 = k0_pay8 (k0_pay3 x2 x3 (k0_pay2 x0 x1 xs0)) x4 x5 x7 x8 (k0_pay4 x4 x6 x10 x11) (k0_pay5 x6 x9) := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0)]
  unfold kernelRun0_C
  dsimp only
  sl_unfold_words
  rw [View.canon_unit_zero (S := S256x256) hz2]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero (S := S256x512) hz2, View.ld_unit_zero (S := S512x256) hz2, View.ld_unit_zero (S := S256x256) hz2, View.ld_unit_zero (S := S2x256x256) hz3, View.ld_unit_zero (S := S1x256) hz2, View.ld_unit_zero (S := S2x1x256) hz3]

end Cert.Hand.Pieces

end
-- ==== Proof.BlockReads.lean ====
import proofs.«141455_j36764920053992_1_alg».proof.Proof.Gen.KernelIdeal.Value
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

/-! Where each window's block sits in its array. The grid has 8 x 8 x 4 points, the last axis fastest: point t has
    row-block t / 32, column-block t / 4 mod 8 and step t mod 4. The two left operands' blocks are rows of the
    row-block and positions of the step; the two right operands' blocks positions of the step and columns of the
    column-block; everything else sits at (row-block, column-block), the per-neuron parameters at the column-block. -/

namespace Cert.Hand.BlockReads

open Cert.KernelIdeal Cert.KernelIdeal.Gen Idealize.ShloMosaic.ValueIdx

variable {F : FTy → Type} [FloatOps F]
variable (m : (ℓ : Loc nD τ sig) → Buf (Elt F) ℓ)

/-- The four product operands' block indices, decided over the grid. -/
theorem idx_products : ∀ t : Fin cfg0.N, win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = t.val / 32 ∧ win0_2.index t (1 : Fin 2) = t.val % 4
    ∧ win0_3.index t (0 : Fin 2) = t.val % 4 ∧ win0_3.index t (1 : Fin 2) = t.val / 4 % 8 :=
  (by decide +kernel : ∀ t : Fin grid0.N, _)
/-- The firing, voltage and after-spike blocks' indices. -/
theorem idx_state : ∀ t : Fin cfg0.N, win0_4.index t (0 : Fin 2) = t.val / 32 ∧ win0_4.index t (1 : Fin 2) = t.val / 4 % 8
    ∧ win0_5.index t (0 : Fin 2) = t.val / 32 ∧ win0_5.index t (1 : Fin 2) = t.val / 4 % 8
    ∧ win0_6.index t (0 : Fin 3) = 0 ∧ win0_6.index t (1 : Fin 3) = t.val / 32 ∧ win0_6.index t (2 : Fin 3) = t.val / 4 % 8 :=
  (by decide +kernel : ∀ t : Fin grid0.N, _)
/-- The per-neuron parameters' block indices. -/
theorem idx_params : ∀ t : Fin cfg0.N, win0_7.index t (0 : Fin 2) = 0 ∧ win0_7.index t (1 : Fin 2) = t.val / 4 % 8
    ∧ win0_8.index t (0 : Fin 2) = 0 ∧ win0_8.index t (1 : Fin 2) = t.val / 4 % 8
    ∧ win0_9.index t (0 : Fin 3) = 0 ∧ win0_9.index t (1 : Fin 3) = 0 ∧ win0_9.index t (2 : Fin 3) = t.val / 4 % 8
    ∧ win0_10.index t (0 : Fin 3) = 0 ∧ win0_10.index t (1 : Fin 3) = 0 ∧ win0_10.index t (2 : Fin 3) = t.val / 4 % 8
    ∧ win0_11.index t (0 : Fin 3) = 0 ∧ win0_11.index t (1 : Fin 3) = 0 ∧ win0_11.index t (2 : Fin 3) = t.val / 4 % 8 :=
  (by decide +kernel : ∀ t : Fin grid0.N, _)
/-- The four result blocks' indices. -/
theorem idx_results : ∀ t : Fin cfg0.N, win0_12.index t (0 : Fin 2) = t.val / 32 ∧ win0_12.index t (1 : Fin 2) = t.val / 4 % 8
    ∧ win0_13.index t (0 : Fin 2) = t.val / 32 ∧ win0_13.index t (1 : Fin 2) = t.val / 4 % 8
    ∧ win0_14.index t (0 : Fin 3) = 0 ∧ win0_14.index t (1 : Fin 3) = t.val / 32 ∧ win0_14.index t (2 : Fin 3) = t.val / 4 % 8
    ∧ win0_15.index t (0 : Fin 2) = t.val / 32 ∧ win0_15.index t (1 : Fin 2) = t.val / 4 % 8 :=
  (by decide +kernel : ∀ t : Fin grid0.N, _)
/-- The first left operand's block at point t, entry (p, j): the array's entry at row 256·(t/32) + p, position 512·(t mod 4) + j. -/
theorem read_x (c : Dev nD) (t : Fin cfg0.N) (p : Fin 256) (j : Fin 512) (p' j' : Fin 2048)
    (h0 : p'.val = 256 * (t.val / 32) + p.val) (h1 : j'.val = 512 * (t.val % 4) + j.val) :
    (iblk m c 0 t : Vec F S256x512 .f32) (ix2 p j) = V m c main_arg0 (ix2 p' j') := by
  unfold iblk
  rw [View.read_apply]
  show V m c main_arg0 (((cfg0.win 0).blk t).view.emb (ix2 p j)) = _
  obtain ⟨e0, e1, -⟩ := idx_products t
  refine congrArg (V m c main_arg0) (funext fun a => Fin.ext ?_)
  match a with
  | ⟨0, _⟩ => show win0_0.index t (0 : Fin 2) * 256 + 1 * p.val = p'.val; omega
  | ⟨1, _⟩ => show win0_0.index t (1 : Fin 2) * 512 + 1 * j.val = j'.val; omega

/-- The first right operand's block, entry (j, q): position 512·(t mod 4) + j, column 256·(t/4 mod 8) + q. -/
theorem read_W (c : Dev nD) (t : Fin cfg0.N) (j : Fin 512) (q : Fin 256) (j' q' : Fin 2048)
    (h0 : j'.val = 512 * (t.val % 4) + j.val) (h1 : q'.val = 256 * (t.val / 4 % 8) + q.val) :
    (iblk m c 1 t : Vec F S512x256 .f32) (ix2 j q) = V m c main_arg6 (ix2 j' q') := by
  unfold iblk
  rw [View.read_apply]
  show V m c main_arg6 (((cfg0.win 1).blk t).view.emb (ix2 j q)) = _
  obtain ⟨-, -, e0, e1, -⟩ := idx_products t
  refine congrArg (V m c main_arg6) (funext fun a => Fin.ext ?_)
  match a with
  | ⟨0, _⟩ => show win0_1.index t (0 : Fin 2) * 512 + 1 * j.val = j'.val; omega
  | ⟨1, _⟩ => show win0_1.index t (1 : Fin 2) * 256 + 1 * q.val = q'.val; omega

/-- The second left operand's block, entry (p, j). -/
theorem read_d (c : Dev nD) (t : Fin cfg0.N) (p : Fin 256) (j : Fin 512) (p' j' : Fin 2048)
    (h0 : p'.val = 256 * (t.val / 32) + p.val) (h1 : j'.val = 512 * (t.val % 4) + j.val) :
    (iblk m c 2 t : Vec F S256x512 .f32) (ix2 p j) = V m c main_arg5 (ix2 p' j') := by
  unfold iblk
  rw [View.read_apply]
  show V m c main_arg5 (((cfg0.win 2).blk t).view.emb (ix2 p j)) = _
  obtain ⟨-, -, -, -, e0, e1, -⟩ := idx_products t
  refine congrArg (V m c main_arg5) (funext fun a => Fin.ext ?_)
  match a with
  | ⟨0, _⟩ => show win0_2.index t (0 : Fin 2) * 256 + 1 * p.val = p'.val; omega
  | ⟨1, _⟩ => show win0_2.index t (1 : Fin 2) * 512 + 1 * j.val = j'.val; omega

/-- The second right operand's block, entry (j, q). -/
theorem read_L (c : Dev nD) (t : Fin cfg0.N) (j : Fin 512) (q : Fin 256) (j' q' : Fin 2048)
    (h0 : j'.val = 512 * (t.val % 4) + j.val) (h1 : q'.val = 256 * (t.val / 4 % 8) + q.val) :
    (iblk m c 3 t : Vec F S512x256 .f32) (ix2 j q) = V m c main_arg7 (ix2 j' q') := by
  unfold iblk
  rw [View.read_apply]
  show V m c main_arg7 (((cfg0.win 3).blk t).view.emb (ix2 j q)) = _
  obtain ⟨-, -, -, -, -, -, e0, e1⟩ := idx_products t
  refine congrArg (V m c main_arg7) (funext fun a => Fin.ext ?_)
  match a with
  | ⟨0, _⟩ => show win0_3.index t (0 : Fin 2) * 512 + 1 * j.val = j'.val; omega
  | ⟨1, _⟩ => show win0_3.index t (1 : Fin 2) * 256 + 1 * q.val = q'.val; omega

/-- The firing block, entry (p, q): row 256·(t/32) + p, column 256·(t/4 mod 8) + q. -/
theorem read_f (c : Dev nD) (t : Fin cfg0.N) (p : Fin 256) (q : Fin 256) (p' q' : Fin 2048)
    (h0 : p'.val = 256 * (t.val / 32) + p.val) (h1 : q'.val = 256 * (t.val / 4 % 8) + q.val) :
    (iblk m c 4 t : Vec F S256x256 .f32) (ix2 p q) = V m c main_arg1 (ix2 p' q') := by
  unfold iblk
  rw [View.read_apply]
  show V m c main_arg1 (((cfg0.win 4).blk t).view.emb (ix2 p q)) = _
  obtain ⟨e0, e1, -⟩ := idx_state t
  refine congrArg (V m c main_arg1) (funext fun a => Fin.ext ?_)
  match a with
  | ⟨0, _⟩ => show win0_4.index t (0 : Fin 2) * 256 + 1 * p.val = p'.val; omega
  | ⟨1, _⟩ => show win0_4.index t (1 : Fin 2) * 256 + 1 * q.val = q'.val; omega

/-- The voltage block, entry (p, q). -/
theorem read_v (c : Dev nD) (t : Fin cfg0.N) (p : Fin 256) (q : Fin 256) (p' q' : Fin 2048)
    (h0 : p'.val = 256 * (t.val / 32) + p.val) (h1 : q'.val = 256 * (t.val / 4 % 8) + q.val) :
    (iblk m c 5 t : Vec F S256x256 .f32) (ix2 p q) = V m c main_arg2 (ix2 p' q') := by
  unfold iblk
  rw [View.read_apply]
  show V m c main_arg2 (((cfg0.win 5).blk t).view.emb (ix2 p q)) = _
  obtain ⟨-, -, e0, e1, -⟩ := idx_state t
  refine congrArg (V m c main_arg2) (funext fun a => Fin.ext ?_)
  match a with
  | ⟨0, _⟩ => show win0_5.index t (0 : Fin 2) * 256 + 1 * p.val = p'.val; omega
  | ⟨1, _⟩ => show win0_5.index t (1 : Fin 2) * 256 + 1 * q.val = q'.val; omega

/-- The after-spike block at point t, entry (a, p, q), is the array's entry (a, row, column). -/
theorem read_A (c : Dev nD) (t : Fin cfg0.N) (a : Fin 2) (p q : Fin 256) (p' q' : Fin 2048)
    (h0 : p'.val = 256 * (t.val / 32) + p.val) (h1 : q'.val = 256 * (t.val / 4 % 8) + q.val) :
    (iblk m c 6 t : Vec F S2x256x256 .f32) (ix3 a p q) = V m c main_arg3 (ix3 a p' q') := by
  unfold iblk
  rw [View.read_apply]
  show V m c main_arg3 (((cfg0.win 6).blk t).view.emb (ix3 a p q)) = _
  obtain ⟨-, -, -, -, e0, e1, e2⟩ := idx_state t
  refine congrArg (V m c main_arg3) (funext fun b => Fin.ext ?_)
  match b with
  | ⟨0, _⟩ => show win0_6.index t (0 : Fin 3) * 2 + 1 * a.val = a.val; omega
  | ⟨1, _⟩ => show win0_6.index t (1 : Fin 3) * 256 + 1 * p.val = p'.val; omega
  | ⟨2, _⟩ => show win0_6.index t (2 : Fin 3) * 256 + 1 * q.val = q'.val; omega

/-- The threshold block, entry (0, q): the array's entry (0, column). -/
theorem read_theta (c : Dev nD) (t : Fin cfg0.N) (q : Fin 256) (q' : Fin 2048) (h1 : q'.val = 256 * (t.val / 4 % 8) + q.val) :
    (iblk m c 7 t : Vec F S1x256 .f32) (ix2 (0 : Fin 1) q) = V m c main_arg8 (ix2 (0 : Fin 1) q') := by
  unfold iblk
  rw [View.read_apply]
  show V m c main_arg8 (((cfg0.win 7).blk t).view.emb (ix2 (0 : Fin 1) q)) = _
  obtain ⟨e0, e1, -⟩ := idx_params t
  refine congrArg (V m c main_arg8) (funext fun a => Fin.ext ?_)
  match a with
  | ⟨0, _⟩ => show win0_7.index t (0 : Fin 2) * 1 + 1 * 0 = 0; omega
  | ⟨1, _⟩ => show win0_7.index t (1 : Fin 2) * 256 + 1 * q.val = q'.val; omega

/-- The membrane-parameter block, entry (0, q). -/
theorem read_mu (c : Dev nD) (t : Fin cfg0.N) (q : Fin 256) (q' : Fin 2048) (h1 : q'.val = 256 * (t.val / 4 % 8) + q.val) :
    (iblk m c 8 t : Vec F S1x256 .f32) (ix2 (0 : Fin 1) q) = V m c main_arg9 (ix2 (0 : Fin 1) q') := by
  unfold iblk
  rw [View.read_apply]
  show V m c main_arg9 (((cfg0.win 8).blk t).view.emb (ix2 (0 : Fin 1) q)) = _
  obtain ⟨-, -, e0, e1, -⟩ := idx_params t
  refine congrArg (V m c main_arg9) (funext fun a => Fin.ext ?_)
  match a with
  | ⟨0, _⟩ => show win0_8.index t (0 : Fin 2) * 1 + 1 * 0 = 0; omega
  | ⟨1, _⟩ => show win0_8.index t (1 : Fin 2) * 256 + 1 * q.val = q'.val; omega

/-- The decay-parameter block, entry (a, 0, q): the array's entry (a, 0, column). -/
theorem read_kappa (c : Dev nD) (t : Fin cfg0.N) (a : Fin 2) (q : Fin 256) (q' : Fin 2048) (h1 : q'.val = 256 * (t.val / 4 % 8) + q.val) :
    (iblk m c 9 t : Vec F S2x1x256 .f32) (ix3 a (0 : Fin 1) q) = V m c main_arg10 (ix3 a (0 : Fin 1) q') := by
  unfold iblk
  rw [View.read_apply]
  show V m c main_arg10 (((cfg0.win 9).blk t).view.emb (ix3 a (0 : Fin 1) q)) = _
  obtain ⟨-, -, -, -, e0, e1, e2, -⟩ := idx_params t
  refine congrArg (V m c main_arg10) (funext fun b => Fin.ext ?_)
  match b with
  | ⟨0, _⟩ => show win0_9.index t (0 : Fin 3) * 2 + 1 * a.val = a.val; omega
  | ⟨1, _⟩ => show win0_9.index t (1 : Fin 3) * 1 + 1 * 0 = 0; omega
  | ⟨2, _⟩ => show win0_9.index t (2 : Fin 3) * 256 + 1 * q.val = q'.val; omega

/-- The refractory-parameter block, entry (a, 0, q). -/
theorem read_rho (c : Dev nD) (t : Fin cfg0.N) (a : Fin 2) (q : Fin 256) (q' : Fin 2048) (h1 : q'.val = 256 * (t.val / 4 % 8) + q.val) :
    (iblk m c 10 t : Vec F S2x1x256 .f32) (ix3 a (0 : Fin 1) q) = V m c main_arg11 (ix3 a (0 : Fin 1) q') := by
  unfold iblk
  rw [View.read_apply]
  show V m c main_arg11 (((cfg0.win 10).blk t).view.emb (ix3 a (0 : Fin 1) q)) = _
  obtain ⟨-, -, -, -, -, -, -, e0, e1, e2, -⟩ := idx_params t
  refine congrArg (V m c main_arg11) (funext fun b => Fin.ext ?_)
  match b with
  | ⟨0, _⟩ => show win0_10.index t (0 : Fin 3) * 2 + 1 * a.val = a.val; omega
  | ⟨1, _⟩ => show win0_10.index t (1 : Fin 3) * 1 + 1 * 0 = 0; omega
  | ⟨2, _⟩ => show win0_10.index t (2 : Fin 3) * 256 + 1 * q.val = q'.val; omega

/-- The amplitude-parameter block, entry (a, 0, q). -/
theorem read_alpha (c : Dev nD) (t : Fin cfg0.N) (a : Fin 2) (q : Fin 256) (q' : Fin 2048) (h1 : q'.val = 256 * (t.val / 4 % 8) + q.val) :
    (iblk m c 11 t : Vec F S2x1x256 .f32) (ix3 a (0 : Fin 1) q) = V m c main_arg12 (ix3 a (0 : Fin 1) q') := by
  unfold iblk
  rw [View.read_apply]
  show V m c main_arg12 (((cfg0.win 11).blk t).view.emb (ix3 a (0 : Fin 1) q)) = _
  obtain ⟨-, -, -, -, -, -, -, -, -, -, e0, e1, e2⟩ := idx_params t
  refine congrArg (V m c main_arg12) (funext fun b => Fin.ext ?_)
  match b with
  | ⟨0, _⟩ => show win0_11.index t (0 : Fin 3) * 2 + 1 * a.val = a.val; omega
  | ⟨1, _⟩ => show win0_11.index t (1 : Fin 3) * 1 + 1 * 0 = 0; omega
  | ⟨2, _⟩ => show win0_11.index t (2 : Fin 3) * 256 + 1 * q.val = q'.val; omega

end Cert.Hand.BlockReads

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.PayloadAt.lean ====
/-
  The arithmetic of the kernel body, read entry by entry with exact arithmetic.

  Each value the body stores is one pure term over the blocks it has loaded (the payloads of the generated
  skeleton). Read at one index, with the entries extended reals and the operations exact, every such term is the
  specification's formula for that entry:
  • the cleared accumulator is the word of 0 everywhere;
  • an accumulation step adds to the accumulator's entry (p, q) the sum over the shared axis
    ∑ⱼ l(p,j)·r(j,q): the narrowing of the operands changes no value, and the product into the zero block is
    that sum;
  • the new after-spike current at (a, p, q) is the specification's function of the old current there, the firing
    at (p, q) and the three parameters of neuron q in component a: the parameters, given once per neuron, are
    repeated along the rows, and the firing is repeated over the two components;
  • the new voltage at (p, q) is the specification's function of the accumulator, the sum over the two components
    of the new currents, the firing, the old voltage and the membrane parameter of neuron q;
  • the new firing at (p, q) is the specification's function of the new voltage there and the threshold of
    neuron q.
  A pointwise operation read at an index is the operation on the entries by definition; what needs an argument
  is where an entry comes FROM: a repetition along an axis, a unit axis added, a sum over the leading axis, and the
  contraction of a product.
-/
import proofs.«141455_j36764920053992_1_alg».proof.Proof.Gen.KernelIdeal.Skeleton
import proofs.«141455_j36764920053992_1_alg».proof.Proof.Neuron
import proofs.«141455_j36764920053992_1_alg».proof.Proof.LibRowBlock
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.PayloadAt

open Idealize.ShloMosaic Idealize.ShloMosaic.ValueIdx
open Cert.KernelIdeal Cert.KernelIdeal.Gen Cert.Hand.Neuron

/-! ## Where an entry comes from: two repetitions of rank 3 and a sum over the leading axis -/

/-- An `[a, 1, c]` array repeated along its middle axis to `[a, b, c]` reads, at `(i, p, q)`, the operand at `(i, 0, q)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (p : Fin b) (q : Fin c) :
    broadcastTo ⟨3, ![a, b, c]⟩ v h (ix3 i p q) = v (ix3 i (0 : Fin 1) q) := by
  refine broadcastTo_apply v h (ix3 i p q) (ix3 i (0 : Fin 1) q) fun ax => ?_
  match ax with
  | ⟨0, _⟩ =>
    show i.val = if a = 1 then 0 else i.val
    split
    · have := i.isLt; omega
    · rfl
  | ⟨1, _⟩ => rfl
  | ⟨2, _⟩ =>
    show q.val = if c = 1 then 0 else q.val
    split
    · have := q.isLt; omega
    · rfl

/-- A `[1, b, c]` array repeated along its leading axis to `[a, b, c]` reads, at `(i, p, q)`, the operand at `(0, p, q)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (p : Fin b) (q : Fin c) :
    broadcastTo ⟨3, ![a, b, c]⟩ v h (ix3 i p q) = v (ix3 (0 : Fin 1) p q) := by
  refine broadcastTo_apply v h (ix3 i p q) (ix3 (0 : Fin 1) p q) fun ax => ?_
  match ax with
  | ⟨0, _⟩ => rfl
  | ⟨1, _⟩ =>
    show p.val = if b = 1 then 0 else p.val
    split
    · have := p.isLt; omega
    · rfl
  | ⟨2, _⟩ =>
    show q.val = if c = 1 then 0 else q.val
    split
    · have := q.isLt; omega
    · rfl

/-- A `[2, m, n]` array summed over its leading axis reads, at `(p, q)`, the sum of its two components there. -/
theorem sumLeading_apply {m n : ℕ} (src : FVec Ideal ⟨3, ![2, m, n]⟩ .f32)
    (h : Shape.Reduces ⟨3, ![2, m, n]⟩ [0] ⟨2, ![m, n]⟩) (hφ : FKind.Formats .f32)
    (hacc : (0x00000000#32 : BitVec 32) = FKind.add.neutral .f32 hφ) (p : Fin m) (q : Fin n) :
    multiReduction (F := Ideal) .add [0] ⟨2, ![m, n]⟩ src 0x00000000#32 h hφ hacc (ix2 p q)
      = ∑ a : Fin 2, src (ix3 a p q) := by
  refine (Ideal.multiReduction_add_single src 0x00000000#32 h hφ hacc (ix2 p q)).trans ?_
  refine Finset.sum_congr rfl fun a _ => congrArg src ?_
  funext c
  refine Fin.ext ?_
  match c with
  | ⟨0, _⟩ => rfl
  | ⟨1, _⟩ => rfl
  | ⟨2, _⟩ => rfl

/-! ## The accumulator: cleared, then a product added at each step -/

/-- The cleared accumulator is the word of 0 at every entry. -/
theorem clear_at (p q : Fin 256) : k0_pay1 (F := Ideal) (ix2 p q) = Neuron.nought := rfl

/-- The product of a `[256, 512]` block with a `[512, 256]` block into the zero block, the operands narrowed first,
    is at `(p, q)` the sum over the shared axis of the products of the entries. -/
theorem product_at (l : Vec Ideal S256x512 .f32) (r : Vec Ideal S512x256 .f32) (p q : Fin 256) :
    matmul dot_S256x512_S512x256_S256x256_1_0_0_1_n_n none (truncf .bf16 l bitsLt_bf16_f32) (truncf .bf16 r bitsLt_bf16_f32)
        (constant (F := Ideal) S256x256 .f32 0x00000000#32) (ix2 p q)
      = ∑ j : Fin 512, l (ix2 p j) * r (ix2 j q) := by
  refine (Ideal.matmul_constant_zero_apply dot_S256x512_S512x256_S256x256_1_0_0_1_n_n none
    (truncf .bf16 l bitsLt_bf16_f32) (truncf .bf16 r bitsLt_bf16_f32) (ix2 p q)).trans ?_
  exact Cert.RowBlock.IsRows.dot_plain_sum dot_S256x512_S512x256_S256x256_1_0_0_1_n_n ⟨rfl, rfl, rfl, rfl, rfl, rfl⟩
    (truncf (F := Ideal) .bf16 l bitsLt_bf16_f32) (truncf (F := Ideal) .bf16 r bitsLt_bf16_f32) p q

/-- A step of the first accumulation: the accumulator's entry plus the sum over the shared axis. -/
theorem addProduct_at (l : Vec Ideal S256x512 .f32) (r : Vec Ideal S512x256 .f32) (acc : Vec Ideal S256x256 .f32)
    (p q : Fin 256) :
    k0_pay2 l r acc (ix2 p q) = acc (ix2 p q) + ∑ j : Fin 512, l (ix2 p j) * r (ix2 j q) := by
  unfold k0_pay2
  refine (congrFun (shapeCast_self _ shapeCasts_S256x256_S256x256) (ix2 p q)).trans ?_
  exact congrArg (fun x : EReal => acc (ix2 p q) + x) (product_at l r p q)

/-- A step of the second accumulation: the same. -/
theorem addProduct2_at (l : Vec Ideal S256x512 .f32) (r : Vec Ideal S512x256 .f32) (acc : Vec Ideal S256x256 .f32)
    (p q : Fin 256) :
    k0_pay3 l r acc (ix2 p q) = acc (ix2 p q) + ∑ j : Fin 512, l (ix2 p j) * r (ix2 j q) := by
  unfold k0_pay3
  refine (congrFun (shapeCast_self _ shapeCasts_S256x256_S256x256) (ix2 p q)).trans ?_
  exact congrArg (fun x : EReal => acc (ix2 p q) + x) (product_at l r p q)

/-! ## The after-spike currents -/

/-- The first summand of the new after-spike current: the old current scaled by `1 − 2·σ(ρ)`, shifted by `α`, gated
    by the firing. The parameters are read on the one row they are given on, the firing on the one component. -/
theorem spike_at (f : Vec Ideal S256x256 .f32) (A : Vec Ideal S2x256x256 .f32) (rho alpha : Vec Ideal S2x1x256 .f32)
    (a : Fin 2) (p q : Fin 256) :
    k0_pay4 f A rho alpha (ix3 a p q)
      = ((A (ix3 a p q) * (one - two * Ideal.logistic (rho (ix3 a 0 q))) + alpha (ix3 a 0 q)) * f (ix2 p q)) * one := by
  unfold k0_pay4
  exact congrArg (fun x : EReal => x * one) (congrArg₂ (fun x y : EReal => x * y)
    (congrArg₂ (fun x y : EReal => x + y)
      (congrArg (fun x : EReal => A (ix3 a p q) * x)
        (broadcastTo_a1c_abc_apply _ broadcasts_S2x1x256_S2x256x256 a p q))
      (broadcastTo_a1c_abc_apply alpha broadcasts_S2x1x256_S2x256x256 a p q))
    ((broadcastTo_1bc_abc_apply _ broadcasts_S1x256x256_S2x256x256 a p q).trans
      (shapeCast_ab_1ab_apply f shapeCasts_S256x256_S1x256x256 0 p q)))

/-- The second summand: the old current decayed by `1 − δ·(σ(κ)/δ)`. -/
theorem decay_at (A : Vec Ideal S2x256x256 .f32) (kappa : Vec Ideal S2x1x256 .f32) (a : Fin 2) (p q : Fin 256) :
    k0_pay5 A kappa (ix3 a p q)
      = (one - dt * Ideal.div (Ideal.logistic (kappa (ix3 a 0 q))) dt) * A (ix3 a p q) := by
  unfold k0_pay5
  exact congrArg (fun x : EReal => x * A (ix3 a p q))
    (broadcastTo_a1c_abc_apply _ broadcasts_S2x1x256_S2x256x256 a p q)

/-- The new after-spike current at `(a, p, q)` is the specification's. -/
theorem asc_at (f : Vec Ideal S256x256 .f32) (A : Vec Ideal S2x256x256 .f32) (kappa rho alpha : Vec Ideal S2x1x256 .f32)
    (a : Fin 2) (p q : Fin 256) :
    k0_pay6 (k0_pay4 f A rho alpha) (k0_pay5 A kappa) (ix3 a p q)
      = Neuron.ascOf (A (ix3 a p q)) (f (ix2 p q)) (rho (ix3 a 0 q)) (kappa (ix3 a 0 q)) (alpha (ix3 a 0 q)) := by
  unfold k0_pay6 Neuron.ascOf
  exact congrArg₂ (fun x y : EReal => x + y) (spike_at f A rho alpha a p q) (decay_at A kappa a p q)

/-! ## The voltage and the firing -/

/-- The new voltage at `(p, q)` is the specification's, over the sum of the two components of the new currents. -/
theorem volt_at (acc f v : Vec Ideal S256x256 .f32) (mu : Vec Ideal S1x256 .f32) (s4 s5 : FVec Ideal S2x256x256 .f32)
    (p q : Fin 256) :
    k0_pay7 acc f v mu s4 s5 (ix2 p q)
      = Neuron.voltOf (acc (ix2 p q)) (∑ a : Fin 2, k0_pay6 s4 s5 (ix3 a p q)) (f (ix2 p q)) (v (ix2 p q)) (mu (ix2 0 q)) := by
  unfold k0_pay7 Neuron.voltOf
  exact congrArg (fun x : EReal => x - (one * f (ix2 p q)) * (v (ix2 p q) - nought))
    (congrArg₂ (fun x y : EReal => x + y)
      (congrArg (fun x : EReal => acc (ix2 p q) + x)
        (congrArg₂ (fun x y : EReal => x * y)
          (broadcastTo_1b_ab_apply _ broadcasts_S1x256_S256x256 p q)
          (congrArg (fun x : EReal => x + bias)
            (sumLeading_apply (k0_pay6 s4 s5) reduces_S2x256x256_S256x256 (.inl rfl) rfl p q))))
      (congrArg (fun x : EReal => x * v (ix2 p q))
        (broadcastTo_1b_ab_apply _ broadcasts_S1x256_S256x256 p q)))

/-- The new firing at `(p, q)` is the specification's, over the new voltage there. -/
theorem fire_at (acc f v : Vec Ideal S256x256 .f32) (theta mu : Vec Ideal S1x256 .f32) (s4 s5 : FVec Ideal S2x256x256 .f32)
    (p q : Fin 256) :
    k0_pay8 acc f v theta mu s4 s5 (ix2 p q)
      = Neuron.fireOf (k0_pay7 acc f v mu s4 s5 (ix2 p q)) (theta (ix2 0 q)) := by
  unfold k0_pay8 Neuron.fireOf
  exact congrArg (fun x : EReal => Ideal.logistic (Ideal.div (k0_pay7 acc f v mu s4 s5 (ix2 p q) - x) one))
    (broadcastTo_1b_ab_apply theta broadcasts_S1x256_S256x256 p q)

end Cert.Hand.PayloadAt

end
-- ==== Proof.Accumulate.lean ====
import proofs.«141455_j36764920053992_1_alg».proof.Proof.Gen.KernelIdeal.Value
import Idealize.ShloMosaic.Lib.Pipeline.Value
import Idealize.ShloMosaic.Lib.Tactic
import Idealize.ShloMosaic.Lib.ValueIdx
import Idealize.ShloMosaic.PureOps.Ideal.Laws
import proofs.«141455_j36764920053992_1_alg».proof.Proof.Neuron
import proofs.«141455_j36764920053992_1_alg».proof.Proof.BlockSum
import proofs.«141455_j36764920053992_1_alg».proof.Proof.Pieces
import proofs.«141455_j36764920053992_1_alg».proof.Proof.BlockReads
import proofs.«141455_j36764920053992_1_alg».proof.Proof.PayloadAt

set_option maxRecDepth 16384

noncomputable section

open Idealize.ShloMosaic Idealize.ShloMosaic.TcCoe Idealize.SL.Sem
open Idealize.ShloMosaic.Pipeline (Dat)

/-! The accumulator, point by point. Output block b (row-block b / 8, column-block b mod 8) is worked at the four
    consecutive points 4b, 4b+1, 4b+2, 4b+3; at step s the body adds to the accumulator's entry (p, q) the s-th run of
    512 terms of  ∑ₖ x(row, k)·W(k, column)  and then the s-th run of  ∑ₖ d(row, k)·L(k, column), row = 256·(b/8) + p,
    column = 256·(b mod 8) + q, having cleared it first at step 0. So after point t the entry is the four-step
    accumulator of those two sequences of runs at step t mod 4 — by induction on the point. -/

open scoped BigOperators

namespace Cert.Hand.Accumulate

open Cert.KernelIdeal Cert.KernelIdeal.Gen Cert.Hand Idealize.ShloMosaic.ValueIdx

variable (m : (ℓ : Loc nD τ sig) → Buf (Elt Ideal) ℓ)

/-- The argument arrays as the region finds them, by their roles. -/
abbrev aX (c : Dev nD) : Neuron.Mat := V m c main_arg0
abbrev aW (c : Dev nD) : Neuron.Mat := V m c main_arg6
abbrev aD (c : Dev nD) : Neuron.Mat := V m c main_arg5
abbrev aL (c : Dev nD) : Neuron.Mat := V m c main_arg7

/-- The four product operands' blocks at a point. -/
abbrev bX (c : Dev nD) (t : Fin cfg0.N) : Vec Ideal S256x512 .f32 := iblk m c 0 t
abbrev bW (c : Dev nD) (t : Fin cfg0.N) : Vec Ideal S512x256 .f32 := iblk m c 1 t
abbrev bD (c : Dev nD) (t : Fin cfg0.N) : Vec Ideal S256x512 .f32 := iblk m c 2 t
abbrev bL (c : Dev nD) (t : Fin cfg0.N) : Vec Ideal S512x256 .f32 := iblk m c 3 t

/-- Row p of output block b, column q of output block b, position j of run s. -/
abbrev row (b : ℕ) (p : Fin 256) : Fin 2048 := ⟨(256 * (b / 8) + p.val) % 2048, Nat.mod_lt _ (by decide)⟩
abbrev col (b : ℕ) (q : Fin 256) : Fin 2048 := ⟨(256 * (b % 8) + q.val) % 2048, Nat.mod_lt _ (by decide)⟩
abbrev run (s : ℕ) (j : Fin 512) : Fin 2048 := ⟨(512 * s + j.val) % 2048, Nat.mod_lt _ (by decide)⟩

/-- Run s of the feed-forward product's terms at (row, column) of block b, and of the lateral product's. -/
def first (c : Dev nD) (b : ℕ) (p q : Fin 256) (s : ℕ) : EReal :=
  ∑ j : Fin 512, aX m c (ix2 (row b p) (run s j)) * aW m c (ix2 (run s j) (col b q))
def second (c : Dev nD) (b : ℕ) (p q : Fin 256) (s : ℕ) : EReal :=
  ∑ j : Fin 512, aD m c (ix2 (row b p) (run s j)) * aL m c (ix2 (run s j) (col b q))

/-! ## One point's arithmetic, over any blocks -/

/-- Cleared, then the two block products added. -/
theorem cleared_step (x0 x2 : Vec Ideal S256x512 .f32) (x1 x3 : Vec Ideal S512x256 .f32) (p q : Fin 256) :
    k0_pay3 x2 x3 (k0_pay2 x0 x1 (k0_pay1 (F := Ideal))) (ix2 p q)
      = (0 + ∑ j : Fin 512, x0 (ix2 p j) * x1 (ix2 j q)) + ∑ j : Fin 512, x2 (ix2 p j) * x3 (ix2 j q) := by
  rw [PayloadAt.addProduct2_at, PayloadAt.addProduct_at, PayloadAt.clear_at]
  show (Ideal.ofBits .f32 0x00000000#32 + _) + _ = _
  rw [Ideal.ofBits_zero_f32]

/-- What the accumulator held, then the two block products added. -/
theorem carried_step (x0 x2 : Vec Ideal S256x512 .f32) (x1 x3 : Vec Ideal S512x256 .f32) (xs : Vec Ideal S256x256 .f32)
    (p q : Fin 256) :
    k0_pay3 x2 x3 (k0_pay2 x0 x1 xs) (ix2 p q)
      = (xs (ix2 p q) + ∑ j : Fin 512, x0 (ix2 p j) * x1 (ix2 j q)) + ∑ j : Fin 512, x2 (ix2 p j) * x3 (ix2 j q) := by
  rw [PayloadAt.addProduct2_at, PayloadAt.addProduct_at]

/-! ## A point's block products are runs of the whole products -/

theorem first_run (c : Dev nD) (t : Fin cfg0.N) (p q : Fin 256) :
    ∑ j : Fin 512, bX m c t (ix2 p j) * bW m c t (ix2 j q) = first m c (t.val / 4) p q (t.val % 4) := by
  have ht : t.val < 256 := lt_of_lt_of_eq t.isLt N_0
  refine Finset.sum_congr rfl fun j _ => ?_
  have hj : j.val < 512 := j.isLt
  have hp : p.val < 256 := p.isLt
  have hq : q.val < 256 := q.isLt
  exact congrArg₂ (· * ·)
    (BlockReads.read_x m c t p j (row (t.val / 4) p) (run (t.val % 4) j)
      (by show (256 * (t.val / 4 / 8) + p.val) % 2048 = 256 * (t.val / 32) + p.val; omega)
      (by show (512 * (t.val % 4) + j.val) % 2048 = 512 * (t.val % 4) + j.val; omega))
    (BlockReads.read_W m c t j q (run (t.val % 4) j) (col (t.val / 4) q)
      (by show (512 * (t.val % 4) + j.val) % 2048 = 512 * (t.val % 4) + j.val; omega)
      (by show (256 * (t.val / 4 % 8) + q.val) % 2048 = 256 * (t.val / 4 % 8) + q.val; omega))

theorem second_run (c : Dev nD) (t : Fin cfg0.N) (p q : Fin 256) :
    ∑ j : Fin 512, bD m c t (ix2 p j) * bL m c t (ix2 j q) = second m c (t.val / 4) p q (t.val % 4) := by
  have ht : t.val < 256 := lt_of_lt_of_eq t.isLt N_0
  refine Finset.sum_congr rfl fun j _ => ?_
  have hj : j.val < 512 := j.isLt
  have hp : p.val < 256 := p.isLt
  have hq : q.val < 256 := q.isLt
  exact congrArg₂ (· * ·)
    (BlockReads.read_d m c t p j (row (t.val / 4) p) (run (t.val % 4) j)
      (by show (256 * (t.val / 4 / 8) + p.val) % 2048 = 256 * (t.val / 32) + p.val; omega)
      (by show (512 * (t.val % 4) + j.val) % 2048 = 512 * (t.val % 4) + j.val; omega))
    (BlockReads.read_L m c t j q (run (t.val % 4) j) (col (t.val / 4) q)
      (by show (512 * (t.val % 4) + j.val) % 2048 = 512 * (t.val % 4) + j.val; omega)
      (by show (256 * (t.val / 4 % 8) + q.val) % 2048 = 256 * (t.val / 4 % 8) + q.val; omega))

/-! ## The accumulator after a point -/

/-- What the accumulator holds after point n. -/
abbrev held (c : Dev nD) (n : ℕ) (h : n < cfg0.N) : Vec Ideal S256x256 .f32 := (outsAt0 m c n h).2.2.2.2

/-- At a point that starts a run of four: zero, plus its two runs. -/
theorem held_start (c : Dev nD) (t : Fin cfg0.N) (h0 : t.val % 4 = 0) (p q : Fin 256) :
    held m c t.val t.isLt (ix2 p q)
      = (0 + first m c (t.val / 4) p q (t.val % 4)) + second m c (t.val / 4) p q (t.val % 4) := by
  have h1 : ¬t.val % 4 = 3 := by omega
  show (outsAt0 m c t.val t.isLt).2.2.2.2 (ix2 p q) = _
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p q)).trans ?_
  refine (cleared_step (bX m c t) (bD m c t) (bW m c t) (bL m c t) p q).trans ?_
  exact congrArg₂ (· + ·) (congrArg (0 + ·) (first_run m c t p q)) (second_run m c t p q)

/-- At any other point: what the point before left, plus its two runs. -/
theorem held_next (c : Dev nD) (t : Fin cfg0.N) (h0 : ¬t.val % 4 = 0) (p q : Fin 256) :
    held m c t.val t.isLt (ix2 p q)
      = (held m c (t.val - 1) (Nat.lt_of_le_of_lt (Nat.sub_le _ _) t.isLt) (ix2 p q) + first m c (t.val / 4) p q (t.val % 4))
        + second m c (t.val / 4) p q (t.val % 4) := by
  show (outsAt0 m c t.val t.isLt).2.2.2.2 (ix2 p q) = _
  by_cases h1 : t.val % 4 = 3
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))) (ix2 p q)).trans ?_
    refine (carried_step (bX m c t) (bD m c t) (bW m c t) (bL m c t) _ p q).trans ?_
    exact congrArg₂ (· + ·) (congrArg (_ + ·) (first_run m c t p q)) (second_run m c t p q)
  · rw [outsAt0_B m c t h0 h1]
    dsimp only
    refine (congrFun (Pieces.acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))) (ix2 p q)).trans ?_
    refine (carried_step (bX m c t) (bD m c t) (bW m c t) (bL m c t) _ p q).trans ?_
    exact congrArg₂ (· + ·) (congrArg (_ + ·) (first_run m c t p q)) (second_run m c t p q)

/-- After point n the accumulator's entry (p, q) is the four-step accumulator of output block n / 4's runs at step n mod 4. -/
theorem held_eq (c : Dev nD) : ∀ (n : ℕ) (h : n < cfg0.N) (p q : Fin 256),
    held m c n h (ix2 p q) = BlockSum.acc (first m c (n / 4) p q) (second m c (n / 4) p q) (n % 4) := by
  intro n
  induction n with
  | zero =>
    intro h p q
    exact held_start m c ⟨0, h⟩ rfl p q
  | succ n ih =>
    intro h p q
    by_cases h0 : (n + 1) % 4 = 0
    · refine (held_start m c ⟨n + 1, h⟩ h0 p q).trans ?_
      show (0 + first m c ((n + 1) / 4) p q ((n + 1) % 4)) + second m c ((n + 1) / 4) p q ((n + 1) % 4) = _
      rw [h0]
      rfl
    · refine (held_next m c ⟨n + 1, h⟩ h0 p q).trans ?_
      have e1 : (n + 1) / 4 = n / 4 := by omega
      have e2 : (n + 1) % 4 = n % 4 + 1 := by omega
      show (held m c n _ (ix2 p q) + first m c ((n + 1) / 4) p q ((n + 1) % 4)) + second m c ((n + 1) / 4) p q ((n + 1) % 4) = _
      rw [ih (Nat.lt_of_succ_lt h) p q, e1, e2, BlockSum.acc_succ]

end Cert.Hand.Accumulate

end
-- ==== Proof.Entries.lean ====
import proofs.«141455_j36764920053992_1_alg».proof.Proof.Gen.KernelIdeal.Value
import Idealize.ShloMosaic.Lib.Pipeline.Value
import Idealize.ShloMosaic.Lib.Tactic
import Idealize.ShloMosaic.Lib.ValueIdx
import proofs.«141455_j36764920053992_1_alg».proof.Proof.Accumulate

set_option maxRecDepth 16384

noncomputable section

open Idealize.ShloMosaic Idealize.ShloMosaic.TcCoe Idealize.SL.Sem
open Idealize.ShloMosaic.Pipeline (Dat)

/-! The four blocks written back at the last point of a run of four, entry by entry. Point t = 4b + 3 writes output
    block b. Its synaptic-current block is what the accumulator then holds: all four runs of both products, so the
    whole sums at (row, column). The after-spike, voltage and firing blocks are the body's arithmetic of the blocks
    it loaded, and each loaded block's entry is the array's entry at (row, column), the per-neuron parameters' at the
    column. -/

open scoped BigOperators

namespace Cert.Hand.Entries

open Cert.KernelIdeal Cert.KernelIdeal.Gen Cert.Hand Cert.Hand.Accumulate Idealize.ShloMosaic.ValueIdx

variable (m : (ℓ : Loc nD τ sig) → Buf (Elt Ideal) ℓ)

/-- The other argument arrays as the region finds them, by their roles. -/
abbrev aF (c : Dev nD) : Neuron.Mat := V m c main_arg1
abbrev aV (c : Dev nD) : Neuron.Mat := V m c main_arg2
abbrev aA (c : Dev nD) : Neuron.Cube := V m c main_arg3
abbrev aTheta (c : Dev nD) : Neuron.Par := V m c main_arg8
abbrev aMu (c : Dev nD) : Neuron.Par := V m c main_arg9
abbrev aKappa (c : Dev nD) : Neuron.Par2 := V m c main_arg10
abbrev aRho (c : Dev nD) : Neuron.Par2 := V m c main_arg11
abbrev aAlpha (c : Dev nD) : Neuron.Par2 := V m c main_arg12

/-- Their blocks at a point. -/
abbrev bF (c : Dev nD) (t : Fin cfg0.N) : Vec Ideal S256x256 .f32 := iblk m c 4 t
abbrev bV (c : Dev nD) (t : Fin cfg0.N) : Vec Ideal S256x256 .f32 := iblk m c 5 t
abbrev bA (c : Dev nD) (t : Fin cfg0.N) : Vec Ideal S2x256x256 .f32 := iblk m c 6 t
abbrev bTheta (c : Dev nD) (t : Fin cfg0.N) : Vec Ideal S1x256 .f32 := iblk m c 7 t
abbrev bMu (c : Dev nD) (t : Fin cfg0.N) : Vec Ideal S1x256 .f32 := iblk m c 8 t
abbrev bKappa (c : Dev nD) (t : Fin cfg0.N) : Vec Ideal S2x1x256 .f32 := iblk m c 9 t
abbrev bRho (c : Dev nD) (t : Fin cfg0.N) : Vec Ideal S2x1x256 .f32 := iblk m c 10 t
abbrev bAlpha (c : Dev nD) (t : Fin cfg0.N) : Vec Ideal S2x1x256 .f32 := iblk m c 11 t

/-- After the last point of a run the accumulator's entry is the synaptic current at (row, column). -/
theorem syn_entry (c : Dev nD) (t : Fin cfg0.N) (h3 : t.val % 4 = 3) (p q : Fin 256) :
    held m c t.val t.isLt (ix2 p q) = Neuron.syn (aX m c) (aW m c) (aD m c) (aL m c) (row (t.val / 4) p) (col (t.val / 4) q) := by
  rw [held_eq m c t.val t.isLt p q, h3]
  unfold Neuron.syn
  refine BlockSum.acc_three _ _
    (fun n => aX m c (ix2 (row (t.val / 4) p) n) * aW m c (ix2 n (col (t.val / 4) q)))
    (fun n => aD m c (ix2 (row (t.val / 4) p) n) * aL m c (ix2 n (col (t.val / 4) q))) (fun s => ?_) (fun s => ?_)
  · unfold first
    refine Finset.sum_congr rfl fun j _ => ?_
    have e : run s.val j = BlockSum.pos s j :=
      Fin.ext (by show (512 * s.val + j.val) % 2048 = 512 * s.val + j.val; have := s.isLt; have := j.isLt; omega)
    rw [e]
  · unfold second
    refine Finset.sum_congr rfl fun j _ => ?_
    have e : run s.val j = BlockSum.pos s j :=
      Fin.ext (by show (512 * s.val + j.val) % 2048 = 512 * s.val + j.val; have := s.isLt; have := j.isLt; omega)
    rw [e]

/-- The after-spike block's entry (a, p, q) is the new after-spike current (a, row, column). -/
theorem asc_entry (c : Dev nD) (t : Fin cfg0.N) (a : Fin 2) (p q : Fin 256) :
    k0_pay6 (k0_pay4 (bF m c t) (bA m c t) (bRho m c t) (bAlpha m c t)) (k0_pay5 (bA m c t) (bKappa m c t)) (ix3 a p q)
      = Neuron.asc (aF m c) (aA m c) (aKappa m c) (aRho m c) (aAlpha m c) a (row (t.val / 4) p) (col (t.val / 4) q) := by
  have ht : t.val < 256 := lt_of_lt_of_eq t.isLt N_0
  have hp : p.val < 256 := p.isLt
  have hq : q.val < 256 := q.isLt
  have hr : (row (t.val / 4) p).val = 256 * (t.val / 32) + p.val := by
    show (256 * (t.val / 4 / 8) + p.val) % 2048 = _; omega
  have hc : (col (t.val / 4) q).val = 256 * (t.val / 4 % 8) + q.val := by
    show (256 * (t.val / 4 % 8) + q.val) % 2048 = _; omega
  refine (PayloadAt.asc_at (bF m c t) (bA m c t) (bKappa m c t) (bRho m c t) (bAlpha m c t) a p q).trans ?_
  have e1 : bA m c t (ix3 a p q) = aA m c (ix3 a (row (t.val / 4) p) (col (t.val / 4) q)) := BlockReads.read_A m c t a p q _ _ hr hc
  have e2 : bF m c t (ix2 p q) = aF m c (ix2 (row (t.val / 4) p) (col (t.val / 4) q)) := BlockReads.read_f m c t p q _ _ hr hc
  have e3 : bRho m c t (ix3 a (0 : Fin 1) q) = aRho m c (ix3 a (0 : Fin 1) (col (t.val / 4) q)) := BlockReads.read_rho m c t a q _ hc
  have e4 : bKappa m c t (ix3 a (0 : Fin 1) q) = aKappa m c (ix3 a (0 : Fin 1) (col (t.val / 4) q)) := BlockReads.read_kappa m c t a q _ hc
  have e5 : bAlpha m c t (ix3 a (0 : Fin 1) q) = aAlpha m c (ix3 a (0 : Fin 1) (col (t.val / 4) q)) := BlockReads.read_alpha m c t a q _ hc
  rw [e1, e2, e3, e4, e5]
  rfl

/-- The voltage block's entry (p, q) is the new voltage at (row, column). -/
theorem volt_entry (c : Dev nD) (t : Fin cfg0.N) (h3 : t.val % 4 = 3) (p q : Fin 256) :
    k0_pay7 (held m c t.val t.isLt) (bF m c t) (bV m c t) (bMu m c t) (k0_pay4 (bF m c t) (bA m c t) (bRho m c t) (bAlpha m c t)) (k0_pay5 (bA m c t) (bKappa m c t)) (ix2 p q)
      = Neuron.volt (aX m c) (aW m c) (aD m c) (aL m c) (aF m c) (aV m c) (aA m c) (aMu m c) (aKappa m c) (aRho m c) (aAlpha m c) (row (t.val / 4) p) (col (t.val / 4) q) := by
  have ht : t.val < 256 := lt_of_lt_of_eq t.isLt N_0
  have hp : p.val < 256 := p.isLt
  have hq : q.val < 256 := q.isLt
  have hr : (row (t.val / 4) p).val = 256 * (t.val / 32) + p.val := by
    show (256 * (t.val / 4 / 8) + p.val) % 2048 = _; omega
  have hc : (col (t.val / 4) q).val = 256 * (t.val / 4 % 8) + q.val := by
    show (256 * (t.val / 4 % 8) + q.val) % 2048 = _; omega
  refine (PayloadAt.volt_at (held m c t.val t.isLt) (bF m c t) (bV m c t) (bMu m c t) (k0_pay4 (bF m c t) (bA m c t) (bRho m c t) (bAlpha m c t)) (k0_pay5 (bA m c t) (bKappa m c t)) p q).trans ?_
  have e0 := syn_entry m c t h3 p q
  have es : ∑ a : Fin 2, k0_pay6 (k0_pay4 (bF m c t) (bA m c t) (bRho m c t) (bAlpha m c t)) (k0_pay5 (bA m c t) (bKappa m c t)) (ix3 a p q)
      = ∑ a : Fin 2, Neuron.asc (aF m c) (aA m c) (aKappa m c) (aRho m c) (aAlpha m c) a (row (t.val / 4) p) (col (t.val / 4) q) :=
    Finset.sum_congr rfl fun a _ => asc_entry m c t a p q
  have ef : bF m c t (ix2 p q) = aF m c (ix2 (row (t.val / 4) p) (col (t.val / 4) q)) := BlockReads.read_f m c t p q _ _ hr hc
  have ev : bV m c t (ix2 p q) = aV m c (ix2 (row (t.val / 4) p) (col (t.val / 4) q)) := BlockReads.read_v m c t p q _ _ hr hc
  have emu : bMu m c t (ix2 (0 : Fin 1) q) = aMu m c (ix2 (0 : Fin 1) (col (t.val / 4) q)) := BlockReads.read_mu m c t q _ hc
  rw [e0, es, ef, ev, emu]
  rfl

/-- The firing block's entry (p, q) is the new firing at (row, column). -/
theorem fire_entry (c : Dev nD) (t : Fin cfg0.N) (h3 : t.val % 4 = 3) (p q : Fin 256) :
    k0_pay8 (held m c t.val t.isLt) (bF m c t) (bV m c t) (bTheta m c t) (bMu m c t) (k0_pay4 (bF m c t) (bA m c t) (bRho m c t) (bAlpha m c t)) (k0_pay5 (bA m c t) (bKappa m c t)) (ix2 p q)
      = Neuron.fire (aX m c) (aW m c) (aD m c) (aL m c) (aF m c) (aV m c) (aA m c) (aTheta m c) (aMu m c) (aKappa m c) (aRho m c) (aAlpha m c) (row (t.val / 4) p) (col (t.val / 4) q) := by
  have ht : t.val < 256 := lt_of_lt_of_eq t.isLt N_0
  have hp : p.val < 256 := p.isLt
  have hq : q.val < 256 := q.isLt
  have hr : (row (t.val / 4) p).val = 256 * (t.val / 32) + p.val := by
    show (256 * (t.val / 4 / 8) + p.val) % 2048 = _; omega
  have hc : (col (t.val / 4) q).val = 256 * (t.val / 4 % 8) + q.val := by
    show (256 * (t.val / 4 % 8) + q.val) % 2048 = _; omega
  refine (PayloadAt.fire_at (held m c t.val t.isLt) (bF m c t) (bV m c t) (bTheta m c t) (bMu m c t) (k0_pay4 (bF m c t) (bA m c t) (bRho m c t) (bAlpha m c t)) (k0_pay5 (bA m c t) (bKappa m c t)) p q).trans ?_
  have e0 := volt_entry m c t h3 p q
  have eth : bTheta m c t (ix2 (0 : Fin 1) q) = aTheta m c (ix2 (0 : Fin 1) (col (t.val / 4) q)) := BlockReads.read_theta m c t q _ hc
  rw [e0, eth]
  rfl

end Cert.Hand.Entries

end
-- ==== Proof.Results.lean ====
import proofs.«141455_j36764920053992_1_alg».proof.Proof.Gen.KernelIdeal.Value
import Idealize.ShloMosaic.Lib.Pipeline.Value
import Idealize.ShloMosaic.Lib.Tactic
import Idealize.ShloMosaic.Lib.ValueIdx
import proofs.«141455_j36764920053992_1_alg».proof.Proof.Entries

set_option maxRecDepth 16384

noncomputable section

open Idealize.ShloMosaic Idealize.ShloMosaic.TcCoe Idealize.SL.Sem
open Idealize.ShloMosaic.Pipeline (Dat)

/-! The four result arrays after the run. Output block b is written back once, at point 4b + 3, and the 64 output
    blocks tile each result array; what is written there is, entry by entry, the update's value at the array index
    the entry sits at. So each result array ends holding the update's array of the argument arrays. -/

open scoped BigOperators

namespace Cert.Hand.Results

open Cert.KernelIdeal Cert.KernelIdeal.Gen Cert.Hand Cert.Hand.Accumulate Cert.Hand.Entries Idealize.ShloMosaic.ValueIdx

variable (m : (ℓ : Loc nD τ sig) → Buf (Elt Ideal) ℓ) (ρ : Dev nD → PrngReg)

/-- The update's four arrays, of the argument arrays as the region finds them. -/
abbrev synOf (c : Dev nD) : Neuron.Mat := Neuron.synArr (aX m c) (aW m c) (aD m c) (aL m c)
abbrev ascOfArr (c : Dev nD) : Neuron.Cube := Neuron.ascArr (aF m c) (aA m c) (aKappa m c) (aRho m c) (aAlpha m c)
abbrev voltOfArr (c : Dev nD) : Neuron.Mat :=
  Neuron.voltArr (aX m c) (aW m c) (aD m c) (aL m c) (aF m c) (aV m c) (aA m c) (aMu m c) (aKappa m c) (aRho m c) (aAlpha m c)
abbrev fireOfArr (c : Dev nD) : Neuron.Mat :=
  Neuron.fireArr (aX m c) (aW m c) (aD m c) (aL m c) (aF m c) (aV m c) (aA m c) (aTheta m c) (aMu m c) (aKappa m c) (aRho m c) (aAlpha m c)

/-- At the last point of a run the accumulator ends at what it held plus that point's two block products. -/
theorem held_last (c : Dev nD) (t : Fin cfg0.N) (h0 : ¬t.val % 4 = 0) (h3 : t.val % 4 = 3) :
    held m c t.val t.isLt = (k0_pay3 (bD m c t) (bL m c t) (k0_pay2 (bX m c t) (bW m c t) (held m c (t.val - 1) (Nat.lt_of_le_of_lt (Nat.sub_le _ _) t.isLt)))) := by
  show (outsAt0 m c t.val t.isLt).2.2.2.2 = _
  rw [outsAt0_C m c t h0 h3]
  dsimp only
  exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))

/-! ## syn: window 15 -/

theorem emb_syn (t : Fin cfg0.N) (p q : Fin 256) :
    ((cfg0.win 15).blk t).view.emb (ix2 p q) = ix2 (row (t.val / 4) p) (col (t.val / 4) q) := by
  have ht : t.val < 256 := lt_of_lt_of_eq t.isLt N_0
  have hp : p.val < 256 := p.isLt
  have hq : q.val < 256 := q.isLt
  obtain ⟨-, -, -, -, -, -, -, e0, e1⟩ := BlockReads.idx_results t
  funext a; apply Fin.ext
  match a with
  | ⟨0, _⟩ => show win0_15.index t (0 : Fin 2) * 256 + 1 * p.val = (256 * (t.val / 4 / 8) + p.val) % 2048; omega
  | ⟨1, _⟩ => show win0_15.index t (1 : Fin 2) * 256 + 1 * q.val = (256 * (t.val / 4 % 8) + q.val) % 2048; omega

/-- What the accumulator holds after a last point, at a block entry, is the synaptic current at the array index the entry sits at. -/
theorem syn_at (c : Dev nD) (t : Fin cfg0.N) (h3 : t.val % 4 = 3) (y : S256x256.Idx) :
    held m c t.val t.isLt y = synOf m c (((cfg0.win 15).blk t).view.emb y) := by
  obtain ⟨p, q, rfl⟩ : ∃ (p q : Fin 256), y = ix2 p q := ⟨y 0, y 1, eq_ix2 y⟩
  rw [emb_syn t p q]
  exact Entries.syn_entry m c t h3 p q

theorem flushed_syn (c : Dev nD) (t : Fin cfg0.N) (hf : (cfg0.win 15).flush t = true) :
    (dats m 0 c).flushed 15 t = ((cfg0.win 15).blk t).view.read (Elt Ideal) (synOf m c) := by
  have h3 : t.val % 4 = 3 := (flush0_15 t).mp hf
  have h0 : ¬t.val % 4 = 0 := by omega
  rw [Value.flushed15_C m c t h0 h3]
  funext y
  rw [View.read_apply]
  show out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt)) y = _
  refine (congrFun (Pieces.syn_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))) y).trans ?_
  refine (congrFun (held_last m c t h0 h3).symm y).trans ?_
  exact syn_at m c t h3 y

theorem mem_syn (t : Fin cfg0.N) (i : S2048x2048.Idx) :
    i ∈ ((cfg0.win 15).blk t).view.set ↔ ∀ a : Fin 2, win0_15.index t a * S256x256.size a ≤ (i a).val ∧ (i a).val < win0_15.index t a * S256x256.size a + S256x256.size a := by
  show i ∈ ((View.whole main_v0_3).slice (win0_15.rect t)).set ↔ _
  rw [View.set_slice_whole, Rect.mem_set_unit]
  exact Iff.rfl

/-- Index i lies in the block written back at the last point of output block (i₀ / 256, i₁ / 256). -/
theorem cover_syn (i : S2048x2048.Idx) : ∃ t : Fin cfg0.N, (cfg0.win 15).flush t = true ∧ i ∈ ((cfg0.win 15).blk t).view.set := by
  have h0 : (i 0).val < 2048 := (i 0).isLt
  have h1 : (i 1).val < 2048 := (i 1).isLt
  have hN : 32 * ((i 0).val / 256) + 4 * ((i 1).val / 256) + 3 < cfg0.N := lt_of_lt_of_eq (by omega) N_0.symm
  refine ⟨⟨32 * ((i 0).val / 256) + 4 * ((i 1).val / 256) + 3, hN⟩, (flush0_15 _).mpr (by show (32 * ((i 0).val / 256) + 4 * ((i 1).val / 256) + 3) % 4 = 3; omega), ?_⟩
  rw [mem_syn]
  obtain ⟨-, -, -, -, -, -, -, e0, e1⟩ := BlockReads.idx_results ⟨32 * ((i 0).val / 256) + 4 * ((i 1).val / 256) + 3, hN⟩
  have e0' : win0_15.index ⟨32 * ((i 0).val / 256) + 4 * ((i 1).val / 256) + 3, hN⟩ (0 : Fin 2) = (32 * ((i 0).val / 256) + 4 * ((i 1).val / 256) + 3) / 32 := e0
  have e1' : win0_15.index ⟨32 * ((i 0).val / 256) + 4 * ((i 1).val / 256) + 3, hN⟩ (1 : Fin 2) = (32 * ((i 0).val / 256) + 4 * ((i 1).val / 256) + 3) / 4 % 8 := e1
  intro a
  match a with
  | ⟨0, _⟩ =>
    show win0_15.index ⟨32 * ((i 0).val / 256) + 4 * ((i 1).val / 256) + 3, hN⟩ (0 : Fin 2) * 256 ≤ (i 0).val ∧ (i 0).val < win0_15.index ⟨32 * ((i 0).val / 256) + 4 * ((i 1).val / 256) + 3, hN⟩ (0 : Fin 2) * 256 + 256
    rw [e0']; omega
  | ⟨1, _⟩ =>
    show win0_15.index ⟨32 * ((i 0).val / 256) + 4 * ((i 1).val / 256) + 3, hN⟩ (1 : Fin 2) * 256 ≤ (i 1).val ∧ (i 1).val < win0_15.index ⟨32 * ((i 0).val / 256) + 4 * ((i 1).val / 256) + 3, hN⟩ (1 : Fin 2) * 256 + 256
    rw [e1']; omega

/-- The array after the run. -/
theorem final_syn (c : Dev nD) : (dats m 0 c).arrAt 15 cfg0.N = synOf m c :=
  (dats m 0 c).arrAt_eq_of_cover 15 (synOf m c) (fun t hf => flushed_syn m c t hf) cover_syn

/-! ## after-spike currents: window 14 -/

theorem emb_asc (t : Fin cfg0.N) (a : Fin 2) (p q : Fin 256) :
    ((cfg0.win 14).blk t).view.emb (ix3 a p q) = ix3 a (row (t.val / 4) p) (col (t.val / 4) q) := by
  have ht : t.val < 256 := lt_of_lt_of_eq t.isLt N_0
  have hp : p.val < 256 := p.isLt
  have hq : q.val < 256 := q.isLt
  obtain ⟨-, -, -, -, ez, e0, e1, -⟩ := BlockReads.idx_results t
  funext b; apply Fin.ext
  match b with
  | ⟨0, _⟩ => show win0_14.index t (0 : Fin 3) * 2 + 1 * a.val = a.val; omega
  | ⟨1, _⟩ => show win0_14.index t (1 : Fin 3) * 256 + 1 * p.val = (256 * (t.val / 4 / 8) + p.val) % 2048; omega
  | ⟨2, _⟩ => show win0_14.index t (2 : Fin 3) * 256 + 1 * q.val = (256 * (t.val / 4 % 8) + q.val) % 2048; omega

theorem asc_at (c : Dev nD) (t : Fin cfg0.N) (y : S2x256x256.Idx) :
    k0_pay6 (k0_pay4 (bF m c t) (bA m c t) (bRho m c t) (bAlpha m c t)) (k0_pay5 (bA m c t) (bKappa m c t)) y = ascOfArr m c (((cfg0.win 14).blk t).view.emb y) := by
  obtain ⟨a, p, q, rfl⟩ : ∃ (a : Fin 2) (p q : Fin 256), y = ix3 a p q := ⟨y 0, y 1, y 2, eq_ix3 y⟩
  rw [emb_asc t a p q]
  exact Entries.asc_entry m c t a p q

theorem flushed_asc (c : Dev nD) (t : Fin cfg0.N) (hf : (cfg0.win 14).flush t = true) :
    (dats m 0 c).flushed 14 t = ((cfg0.win 14).blk t).view.read (Elt Ideal) (ascOfArr m c) := by
  have h3 : t.val % 4 = 3 := (flush0_14 t).mp hf
  have h0 : ¬t.val % 4 = 0 := by omega
  rw [Value.flushed14_C m c t h0 h3]
  funext y
  rw [View.read_apply]
  show out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt)) y = _
  refine (congrFun (Pieces.asc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))) y).trans ?_
  exact asc_at m c t y

theorem mem_asc (t : Fin cfg0.N) (i : S2x2048x2048.Idx) :
    i ∈ ((cfg0.win 14).blk t).view.set ↔ ∀ a : Fin 3, win0_14.index t a * S2x256x256.size a ≤ (i a).val ∧ (i a).val < win0_14.index t a * S2x256x256.size a + S2x256x256.size a := by
  show i ∈ ((View.whole main_v0_2).slice (win0_14.rect t)).set ↔ _
  rw [View.set_slice_whole, Rect.mem_set_unit]
  exact Iff.rfl

theorem cover_asc (i : S2x2048x2048.Idx) : ∃ t : Fin cfg0.N, (cfg0.win 14).flush t = true ∧ i ∈ ((cfg0.win 14).blk t).view.set := by
  have hz : (i 0).val < 2 := (i 0).isLt
  have h0 : (i 1).val < 2048 := (i 1).isLt
  have h1 : (i 2).val < 2048 := (i 2).isLt
  have hN : 32 * ((i 1).val / 256) + 4 * ((i 2).val / 256) + 3 < cfg0.N := lt_of_lt_of_eq (by omega) N_0.symm
  refine ⟨⟨32 * ((i 1).val / 256) + 4 * ((i 2).val / 256) + 3, hN⟩, (flush0_14 _).mpr (by show (32 * ((i 1).val / 256) + 4 * ((i 2).val / 256) + 3) % 4 = 3; omega), ?_⟩
  rw [mem_asc]
  obtain ⟨-, -, -, -, ez, e0, e1, -⟩ := BlockReads.idx_results ⟨32 * ((i 1).val / 256) + 4 * ((i 2).val / 256) + 3, hN⟩
  have e0' : win0_14.index ⟨32 * ((i 1).val / 256) + 4 * ((i 2).val / 256) + 3, hN⟩ (1 : Fin 3) = (32 * ((i 1).val / 256) + 4 * ((i 2).val / 256) + 3) / 32 := e0
  have e1' : win0_14.index ⟨32 * ((i 1).val / 256) + 4 * ((i 2).val / 256) + 3, hN⟩ (2 : Fin 3) = (32 * ((i 1).val / 256) + 4 * ((i 2).val / 256) + 3) / 4 % 8 := e1
  intro a
  match a with
  | ⟨0, _⟩ =>
    show win0_14.index ⟨32 * ((i 1).val / 256) + 4 * ((i 2).val / 256) + 3, hN⟩ (0 : Fin 3) * 2 ≤ (i 0).val ∧ (i 0).val < win0_14.index ⟨32 * ((i 1).val / 256) + 4 * ((i 2).val / 256) + 3, hN⟩ (0 : Fin 3) * 2 + 2
    rw [ez]; omega
  | ⟨1, _⟩ =>
    show win0_14.index ⟨32 * ((i 1).val / 256) + 4 * ((i 2).val / 256) + 3, hN⟩ (1 : Fin 3) * 256 ≤ (i 1).val ∧ (i 1).val < win0_14.index ⟨32 * ((i 1).val / 256) + 4 * ((i 2).val / 256) + 3, hN⟩ (1 : Fin 3) * 256 + 256
    rw [e0']; omega
  | ⟨2, _⟩ =>
    show win0_14.index ⟨32 * ((i 1).val / 256) + 4 * ((i 2).val / 256) + 3, hN⟩ (2 : Fin 3) * 256 ≤ (i 2).val ∧ (i 2).val < win0_14.index ⟨32 * ((i 1).val / 256) + 4 * ((i 2).val / 256) + 3, hN⟩ (2 : Fin 3) * 256 + 256
    rw [e1']; omega

theorem final_asc (c : Dev nD) : (dats m 0 c).arrAt 14 cfg0.N = ascOfArr m c :=
  (dats m 0 c).arrAt_eq_of_cover 14 (ascOfArr m c) (fun t hf => flushed_asc m c t hf) cover_asc

/-! ## volt: window 13 -/

theorem emb_volt (t : Fin cfg0.N) (p q : Fin 256) :
    ((cfg0.win 13).blk t).view.emb (ix2 p q) = ix2 (row (t.val / 4) p) (col (t.val / 4) q) := by
  have ht : t.val < 256 := lt_of_lt_of_eq t.isLt N_0
  have hp : p.val < 256 := p.isLt
  have hq : q.val < 256 := q.isLt
  obtain ⟨-, -, e0, e1, -⟩ := BlockReads.idx_results t
  funext a; apply Fin.ext
  match a with
  | ⟨0, _⟩ => show win0_13.index t (0 : Fin 2) * 256 + 1 * p.val = (256 * (t.val / 4 / 8) + p.val) % 2048; omega
  | ⟨1, _⟩ => show win0_13.index t (1 : Fin 2) * 256 + 1 * q.val = (256 * (t.val / 4 % 8) + q.val) % 2048; omega

theorem volt_at (c : Dev nD) (t : Fin cfg0.N) (h3 : t.val % 4 = 3) (y : S256x256.Idx) :
    k0_pay7 (held m c t.val t.isLt) (bF m c t) (bV m c t) (bMu m c t) (k0_pay4 (bF m c t) (bA m c t) (bRho m c t) (bAlpha m c t)) (k0_pay5 (bA m c t) (bKappa m c t)) y = voltOfArr m c (((cfg0.win 13).blk t).view.emb y) := by
  obtain ⟨p, q, rfl⟩ : ∃ (p q : Fin 256), y = ix2 p q := ⟨y 0, y 1, eq_ix2 y⟩
  rw [emb_volt t p q]
  exact Entries.volt_entry m c t h3 p q

theorem flushed_volt (c : Dev nD) (t : Fin cfg0.N) (hf : (cfg0.win 13).flush t = true) :
    (dats m 0 c).flushed 13 t = ((cfg0.win 13).blk t).view.read (Elt Ideal) (voltOfArr m c) := by
  have h3 : t.val % 4 = 3 := (flush0_13 t).mp hf
  have h0 : ¬t.val % 4 = 0 := by omega
  rw [Value.flushed13_C m c t h0 h3]
  funext y
  rw [View.read_apply]
  show out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt)) y = _
  refine (congrFun (Pieces.volt_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))) y).trans ?_
  refine (congrArg (fun S => k0_pay7 S (bF m c t) (bV m c t) (bMu m c t) (k0_pay4 (bF m c t) (bA m c t) (bRho m c t) (bAlpha m c t)) (k0_pay5 (bA m c t) (bKappa m c t)) y) (held_last m c t h0 h3).symm).trans ?_
  exact volt_at m c t h3 y

theorem mem_volt (t : Fin cfg0.N) (i : S2048x2048.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v0_1).slice (win0_13.rect t)).set ↔ _
  rw [View.set_slice_whole, Rect.mem_set_unit]
  exact Iff.rfl

/-- Index i lies in the block written back at the last point of output block (i₀ / 256, i₁ / 256). -/
theorem cover_volt (i : S2048x2048.Idx) : ∃ t : Fin cfg0.N, (cfg0.win 13).flush t = true ∧ i ∈ ((cfg0.win 13).blk t).view.set := by
  have h0 : (i 0).val < 2048 := (i 0).isLt
  have h1 : (i 1).val < 2048 := (i 1).isLt
  have hN : 32 * ((i 0).val / 256) + 4 * ((i 1).val / 256) + 3 < cfg0.N := lt_of_lt_of_eq (by omega) N_0.symm
  refine ⟨⟨32 * ((i 0).val / 256) + 4 * ((i 1).val / 256) + 3, hN⟩, (flush0_13 _).mpr (by show (32 * ((i 0).val / 256) + 4 * ((i 1).val / 256) + 3) % 4 = 3; omega), ?_⟩
  rw [mem_volt]
  obtain ⟨-, -, e0, e1, -⟩ := BlockReads.idx_results ⟨32 * ((i 0).val / 256) + 4 * ((i 1).val / 256) + 3, hN⟩
  have e0' : win0_13.index ⟨32 * ((i 0).val / 256) + 4 * ((i 1).val / 256) + 3, hN⟩ (0 : Fin 2) = (32 * ((i 0).val / 256) + 4 * ((i 1).val / 256) + 3) / 32 := e0
  have e1' : win0_13.index ⟨32 * ((i 0).val / 256) + 4 * ((i 1).val / 256) + 3, hN⟩ (1 : Fin 2) = (32 * ((i 0).val / 256) + 4 * ((i 1).val / 256) + 3) / 4 % 8 := e1
  intro a
  match a with
  | ⟨0, _⟩ =>
    show win0_13.index ⟨32 * ((i 0).val / 256) + 4 * ((i 1).val / 256) + 3, hN⟩ (0 : Fin 2) * 256 ≤ (i 0).val ∧ (i 0).val < win0_13.index ⟨32 * ((i 0).val / 256) + 4 * ((i 1).val / 256) + 3, hN⟩ (0 : Fin 2) * 256 + 256
    rw [e0']; omega
  | ⟨1, _⟩ =>
    show win0_13.index ⟨32 * ((i 0).val / 256) + 4 * ((i 1).val / 256) + 3, hN⟩ (1 : Fin 2) * 256 ≤ (i 1).val ∧ (i 1).val < win0_13.index ⟨32 * ((i 0).val / 256) + 4 * ((i 1).val / 256) + 3, hN⟩ (1 : Fin 2) * 256 + 256
    rw [e1']; omega

/-- The array after the run. -/
theorem final_volt (c : Dev nD) : (dats m 0 c).arrAt 13 cfg0.N = voltOfArr m c :=
  (dats m 0 c).arrAt_eq_of_cover 13 (voltOfArr m c) (fun t hf => flushed_volt m c t hf) cover_volt

/-! ## fire: window 12 -/

theorem emb_fire (t : Fin cfg0.N) (p q : Fin 256) :
    ((cfg0.win 12).blk t).view.emb (ix2 p q) = ix2 (row (t.val / 4) p) (col (t.val / 4) q) := by
  have ht : t.val < 256 := lt_of_lt_of_eq t.isLt N_0
  have hp : p.val < 256 := p.isLt
  have hq : q.val < 256 := q.isLt
  obtain ⟨e0, e1, -⟩ := BlockReads.idx_results t
  funext a; apply Fin.ext
  match a with
  | ⟨0, _⟩ => show win0_12.index t (0 : Fin 2) * 256 + 1 * p.val = (256 * (t.val / 4 / 8) + p.val) % 2048; omega
  | ⟨1, _⟩ => show win0_12.index t (1 : Fin 2) * 256 + 1 * q.val = (256 * (t.val / 4 % 8) + q.val) % 2048; omega

theorem fire_at (c : Dev nD) (t : Fin cfg0.N) (h3 : t.val % 4 = 3) (y : S256x256.Idx) :
    k0_pay8 (held m c t.val t.isLt) (bF m c t) (bV m c t) (bTheta m c t) (bMu m c t) (k0_pay4 (bF m c t) (bA m c t) (bRho m c t) (bAlpha m c t)) (k0_pay5 (bA m c t) (bKappa m c t)) y = fireOfArr m c (((cfg0.win 12).blk t).view.emb y) := by
  obtain ⟨p, q, rfl⟩ : ∃ (p q : Fin 256), y = ix2 p q := ⟨y 0, y 1, eq_ix2 y⟩
  rw [emb_fire t p q]
  exact Entries.fire_entry m c t h3 p q

theorem flushed_fire (c : Dev nD) (t : Fin cfg0.N) (hf : (cfg0.win 12).flush t = true) :
    (dats m 0 c).flushed 12 t = ((cfg0.win 12).blk t).view.read (Elt Ideal) (fireOfArr m c) := by
  have h3 : t.val % 4 = 3 := (flush0_12 t).mp hf
  have h0 : ¬t.val % 4 = 0 := by omega
  rw [Value.flushed12_C m c t h0 h3]
  funext y
  rw [View.read_apply]
  show out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt)) y = _
  refine (congrFun (Pieces.fire_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (held m c (t.val - 1) (Nat.lt_of_le_of_lt (Nat.sub_le _ _) t.isLt))) y).trans ?_
  refine (congrArg (fun S => k0_pay8 S (bF m c t) (bV m c t) (bTheta m c t) (bMu m c t) (k0_pay4 (bF m c t) (bA m c t) (bRho m c t) (bAlpha m c t)) (k0_pay5 (bA m c t) (bKappa m c t)) y) (held_last m c t h0 h3).symm).trans ?_
  exact fire_at m c t h3 y

theorem mem_fire (t : Fin cfg0.N) (i : S2048x2048.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v0_0).slice (win0_12.rect t)).set ↔ _
  rw [View.set_slice_whole, Rect.mem_set_unit]
  exact Iff.rfl

/-- Index i lies in the block written back at the last point of output block (i₀ / 256, i₁ / 256). -/
theorem cover_fire (i : S2048x2048.Idx) : ∃ t : Fin cfg0.N, (cfg0.win 12).flush t = true ∧ i ∈ ((cfg0.win 12).blk t).view.set := by
  have h0 : (i 0).val < 2048 := (i 0).isLt
  have h1 : (i 1).val < 2048 := (i 1).isLt
  have hN : 32 * ((i 0).val / 256) + 4 * ((i 1).val / 256) + 3 < cfg0.N := lt_of_lt_of_eq (by omega) N_0.symm
  refine ⟨⟨32 * ((i 0).val / 256) + 4 * ((i 1).val / 256) + 3, hN⟩, (flush0_12 _).mpr (by show (32 * ((i 0).val / 256) + 4 * ((i 1).val / 256) + 3) % 4 = 3; omega), ?_⟩
  rw [mem_fire]
  obtain ⟨e0, e1, -⟩ := BlockReads.idx_results ⟨32 * ((i 0).val / 256) + 4 * ((i 1).val / 256) + 3, hN⟩
  have e0' : win0_12.index ⟨32 * ((i 0).val / 256) + 4 * ((i 1).val / 256) + 3, hN⟩ (0 : Fin 2) = (32 * ((i 0).val / 256) + 4 * ((i 1).val / 256) + 3) / 32 := e0
  have e1' : win0_12.index ⟨32 * ((i 0).val / 256) + 4 * ((i 1).val / 256) + 3, hN⟩ (1 : Fin 2) = (32 * ((i 0).val / 256) + 4 * ((i 1).val / 256) + 3) / 4 % 8 := e1
  intro a
  match a with
  | ⟨0, _⟩ =>
    show win0_12.index ⟨32 * ((i 0).val / 256) + 4 * ((i 1).val / 256) + 3, hN⟩ (0 : Fin 2) * 256 ≤ (i 0).val ∧ (i 0).val < win0_12.index ⟨32 * ((i 0).val / 256) + 4 * ((i 1).val / 256) + 3, hN⟩ (0 : Fin 2) * 256 + 256
    rw [e0']; omega
  | ⟨1, _⟩ =>
    show win0_12.index ⟨32 * ((i 0).val / 256) + 4 * ((i 1).val / 256) + 3, hN⟩ (1 : Fin 2) * 256 ≤ (i 1).val ∧ (i 1).val < win0_12.index ⟨32 * ((i 0).val / 256) + 4 * ((i 1).val / 256) + 3, hN⟩ (1 : Fin 2) * 256 + 256
    rw [e1']; omega

/-- The array after the run. -/
theorem final_fire (c : Dev nD) : (dats m 0 c).arrAt 12 cfg0.N = fireOfArr m c :=
  (dats m 0 c).arrAt_eq_of_cover 12 (fireOfArr m c) (fun t hf => flushed_fire m c t hf) cover_fire

/-! ## The run -/

/-- Every weakly fair execution terminates with the four result arrays at the update's arrays and the arguments unchanged. -/
theorem run : θ_run defs (onTc (τ := τ) (main (F := Ideal))) ⟨m, fun _ => 0, ρ⟩ fun r => ∀ c : Dev nD,
      r.2.mem ((c : Thread nD τ).loc main_v0_0) = fireOfArr m c
      ∧ r.2.mem ((c : Thread nD τ).loc main_v0_1) = voltOfArr m c
      ∧ r.2.mem ((c : Thread nD τ).loc main_v0_2) = ascOfArr m c
      ∧ r.2.mem ((c : Thread nD τ).loc main_v0_3) = synOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final_fire m c), (h c).2.1.trans (final_volt m c),
      (h c).2.2.1.trans (final_asc m c), (h c).2.2.2.1.trans (final_syn m c), (h c).2.2.2.2⟩)
    (Cert.KernelIdeal.Value.run_blocks m ρ)

end Cert.Hand.Results

end
-- ==== Proof.lean ====
/-
  A layer of 2048 leaky integrate-and-fire neurons stepped once over a batch of 2048 rows: the kernel against the
  plain array program, equal at the exact instance.

  Both programs compute, from the input x, the delayed firing d, the firing f, the voltage v, the two after-spike
  currents, the feed-forward and lateral weights W and L and the per-neuron parameters:
    the synaptic current      syn = x·W + d·L                                   (two 2048 x 2048 x 2048 products),
    the after-spike currents  asc'(a) = ((asc(a)·(1 − 2σ(ρ_a)) + α_a)·f)·1 + (1 − δ·(σ(κ_a)/δ))·asc(a),
    the voltage               v' = syn + ((δ·(σ(μ)/δ))·R)·(asc'(0) + asc'(1) + I₀) + (1 − δ·(σ(μ)/δ))·v − (1·f)·(v − 0),
    the firing                f' = σ((v' − θ)/1),
  with the same float words for 1, 2, δ, R, I₀ and 0 on both sides, so no constant is ever evaluated.

  The two programs differ in three places only, and none of them needs the inputs to be finite:
  - the logistic function σ is one operation in the kernel and is spelt 1/(1 + e^(−x)) by the array program: the same
    function of an extended real, by its definition and because the word of 1 denotes 1;
  - the kernel cuts the products' shared axis into four runs of 512 and, for each 256 x 256 output block, keeps an
    accumulator over four consecutive grid points: cleared at the first, then at every point the block product of
    x·W is added and then that of d·L; the array program adds the two whole products. Both are the same finite sum
    regrouped, and addition of extended reals is commutative and associative;
  - the kernel sums the two after-spike components by a lane reduction from nothing, the array program by a reduce
    from the word of 0, which denotes 0.
  A change of float format (the kernel rounds the product operands to sixteen bits) is the identity at the exact
  instance. The update's entries are stated once, in Proof/Neuron.lean; the array program's four results are its four
  arrays (Proof/RefIsNeuron.lean), and so are the kernel's (Proof/Pieces.lean: what each grid point leaves;
  Proof/Accumulate.lean: the accumulator by induction on the point; Proof/Entries.lean: the four written-back blocks
  entry by entry; Proof/Results.lean: the 64 output blocks tile each result array).

  The three frames are the generated ones (the array program's is its generated run with the results dropped); the
  ideal pass rewrote nothing, so the fourth conjunct is `True`.
-/
import proofs.«141455_j36764920053992_1_alg».proof.Defs
import proofs.«141455_j36764920053992_1_alg».proof.Proof.Gen.Kernel
import proofs.«141455_j36764920053992_1_alg».proof.Proof.Gen.Kernel.Skeleton
import proofs.«141455_j36764920053992_1_alg».proof.Proof.Gen.Kernel.Launch
import proofs.«141455_j36764920053992_1_alg».proof.Proof.Gen.Kernel.Points
import proofs.«141455_j36764920053992_1_alg».proof.Proof.Gen.Kernel.Frame
import proofs.«141455_j36764920053992_1_alg».proof.Proof.Gen.KernelIdeal
import proofs.«141455_j36764920053992_1_alg».proof.Proof.Gen.KernelIdeal.Skeleton
import proofs.«141455_j36764920053992_1_alg».proof.Proof.Gen.KernelIdeal.Launch
import proofs.«141455_j36764920053992_1_alg».proof.Proof.Gen.KernelIdeal.Points
import proofs.«141455_j36764920053992_1_alg».proof.Proof.Gen.KernelIdeal.Frame
import proofs.«141455_j36764920053992_1_alg».proof.Proof.Gen.ReferenceIdeal
import proofs.«141455_j36764920053992_1_alg».proof.Proof.Gen.KernelIdeal.Value
import proofs.«141455_j36764920053992_1_alg».proof.Proof.Gen.ReferenceIdeal.Run
import proofs.«141455_j36764920053992_1_alg».proof.Proof.Gen.ReferenceIdeal.Read
import proofs.«141455_j36764920053992_1_alg».proof.Proof.Gen.Pre_finite_inputs
import Idealize.ShloMosaic.Adequacy
import Idealize.ShloMosaic.Init
import proofs.«141455_j36764920053992_1_alg».proof.Proof.RefIsNeuron
import proofs.«141455_j36764920053992_1_alg».proof.Proof.Results

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The array program's run keeps its arguments: its generated run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories that agree on the arguments both programs end with the update's four arrays of those arguments. -/
theorem algebraic : Cert.algebraic_KernelIdeal_ReferenceIdeal := by
  intro m ρ m' ρ' _ hagree
  refine ⟨fun c => Cert.Hand.Results.fireOfArr m c, fun c => Cert.Hand.Results.voltOfArr m c,
    fun c => Cert.Hand.Results.ascOfArr m c, fun c => Cert.Hand.Results.synOf m c, Cert.Hand.Results.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12⟩ := hagree c
  refine ⟨(h c).1.trans ?_, (h c).2.1.trans ?_, (h c).2.2.1.trans ?_, (h c).2.2.2.1.trans ?_, (h c).2.2.2.2⟩
  · rw [Cert.ReferenceIdeal.Read.val_main_v77_eq, g0, g1, g2, g3, g5, g6, g7, g8, g9, g10, g11, g12]
    exact Cert.Hand.RefIs.ref_fire _ _ _ _ _ _ _ _ _ _ _ _
  · rw [g0, g1, g2, g3, g5, g6, g7, g9, g10, g11, g12]
    refine (Cert.ReferenceIdeal.Read.val_main_v67_eq _ _ _ _ _ _ _ _ _ _ _).trans ?_
    exact Cert.Hand.RefIs.ref_volt _ _ _ _ _ _ _ _ _ _ _
  · rw [g1, g3, g10, g11, g12]
    refine (Cert.ReferenceIdeal.Read.val_main_v36_eq _ _ _ _ _).trans ?_
    exact Cert.Hand.RefIs.ref_asc _ _ _ _ _
  · rw [g0, g5, g6, g7]
    refine (Cert.ReferenceIdeal.Read.val_main_v2_eq _ _ _ _).trans ?_
    exact Cert.Hand.RefIs.ref_syn _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
